-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S295 : Shape := ⟨1, ![295]⟩
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S295 : S_.BroadcastsInDim S295 (![] : Fin 0 → Fin S295.rank)
  reducesTo_S295_S_d0 : S295.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S4096x4096 .f32) (main_arg12 : FVec F S4096 .f32) (main_arg13 : FVec F S1x4096 .f32) (main_arg14 : FVec F S1 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S1x4096 .f32 := Host.absf main_arg13
  let main_cst_24 : FVec F S_ .f32 := constant S_ .f32 0x7F800000#32
  let main_v65 : FVec F S1x4096 .f32 := broadcastInDim S1x4096 ![] bcast_S_S1x4096 main_cst_24
  let main_v66 : IVec S1x4096 1 := cmpf .olt main_v64 main_v65
  let main_c_25 : IVec S_ 1 := constantI S_ 1 1#1
  let main_v67 : IVec S_ 1 := (fun x v => Host.reduce IntOp.andi x v reducesTo_S1x4096_S_d0_1 h_S_) main_v66 main_c_25
  fn_part4 (F := F) main_arg14 main_v63 main_v67

def fn_part2 {F : FTy → Type} [FloatOps F] (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_v48 main_v49 main_v50

def fn_part1 {F : FTy → Type} [FloatOps F] (main_arg4 : FVec F S295 .f32) (main_arg5 : FVec F S4096x2048 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S295 .f32 := Host.absf main_arg4
  let main_cst_6 : FVec F S_ .f32 := constant S_ .f32 0x7F800000#32
  let main_v20 : FVec F S295 .f32 := broadcastInDim S295 ![] bcast_S_S295 main_cst_6
  let main_v21 : IVec S295 1 := cmpf .olt main_v19 main_v20
  let main_c_7 : IVec S_ 1 := constantI S_ 1 1#1
  let main_v22 : IVec S_ 1 := (fun x v => Host.reduce IntOp.andi x v reducesTo_S295_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S2048x512 .f32) (main_arg2 : FVec F S2048x512 .f32) (main_arg3 : FVec F S2048x512 .f32) (main_arg4 : FVec F S295 .f32) (main_arg5 : FVec F S4096x2048 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S2048x512 : Shape := ⟨2, ![2048, 512]⟩
abbrev S295 : Shape := ⟨1, ![295]⟩
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S8192x2048 : Shape := ⟨2, ![8192, 2048]⟩
abbrev S512x512 : Shape := ⟨2, ![512, 512]⟩
abbrev S512x2048 : Shape := ⟨2, ![512, 2048]⟩
abbrev S2048x2048 : Shape := ⟨2, ![2048, 2048]⟩
abbrev S256x2048 : Shape := ⟨2, ![256, 2048]⟩
abbrev S_ : Shape := ⟨0, ![]⟩
abbrev S2048 : Shape := ⟨1, ![2048]⟩
abbrev S1x2048 : Shape := ⟨2, ![1, 2048]⟩
abbrev S1024x2048 : Shape := ⟨2, ![1024, 2048]⟩
abbrev S8192x4096 : Shape := ⟨2, ![8192, 4096]⟩
abbrev S1024 : Shape := ⟨1, ![1024]⟩
abbrev S512x1024 : Shape := ⟨2, ![512, 1024]⟩
abbrev S1x1024 : Shape := ⟨2, ![1, 1024]⟩
abbrev S512x4096 : Shape := ⟨2, ![512, 4096]⟩
abbrev S1024x4096 : Shape := ⟨2, ![1024, 4096]⟩
abbrev S8192x295 : Shape := ⟨2, ![8192, 295]⟩
abbrev S1024x295 : Shape := ⟨2, ![1024, 295]⟩
abbrev S1024x1 : Shape := ⟨2, ![1024, 1]⟩
abbrev S1x295 : Shape := ⟨2, ![1, 295]⟩

abbrev nBuf : Space → Nat
  | .hbm => 48
  | .vmem => 60
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S295, .f32⟩
  | .hbm, ⟨5, _⟩ => ⟨S4096x2048, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1x4096, .f32⟩
  | .hbm, ⟨14, _⟩ => ⟨S1, .f32⟩
  | .hbm, ⟨15, _⟩ => ⟨S8192x512, .bf16⟩
  | .hbm, ⟨16, _⟩ => ⟨S2048x512, .bf16⟩
  | .hbm, ⟨17, _⟩ => ⟨S2048x512, .bf16⟩
  | .hbm, ⟨18, _⟩ => ⟨S2048x512, .bf16⟩
  | .hbm, ⟨19, _⟩ => ⟨S8192x2048, .bf16⟩
  | .hbm, ⟨20, _⟩ => ⟨S8192x2048, .bf16⟩
  | .hbm, ⟨21, _⟩ => ⟨S8192x2048, .bf16⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | .hbm, ⟨38, _⟩ => ⟨S8192x2048, .bf16⟩
  | .hbm, ⟨39, _⟩ => ⟨S4096x2048, .bf16⟩
  | .hbm, ⟨40, _⟩ => ⟨S8192x4096, .bf16⟩
  | .hbm, ⟨41, _⟩ => ⟨S4096x4096, .bf16⟩
  | .hbm, ⟨42, _⟩ => ⟨S8192x4096, .bf16⟩
  | .hbm, ⟨43, _⟩ => ⟨S4096x4096, .bf16⟩
  | .hbm, ⟨44, _⟩ => ⟨S8192x4096, .bf16⟩
  | .hbm, ⟨45, _⟩ => ⟨S4096x4096, .bf16⟩
  | .hbm, ⟨46, _⟩ => ⟨S8192x4096, .bf16⟩
  | .hbm, ⟨47, _⟩ => ⟨S8192x295, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S2048x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x2048, .bf16⟩
  | .local _ .vmem, ⟨22, _⟩ => ⟨S512x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024, .f32⟩
  | .local _ .vmem, ⟨26, _⟩ => ⟨S1024, .f32⟩
  | .local _ .vmem, ⟨27, _⟩ => ⟨S512x1024, .bf16⟩
  | .local _ .vmem, ⟨28, _⟩ => ⟨S512x1024, .bf16⟩
  | .local _ .vmem, ⟨29, _⟩ => ⟨S512x4096, .bf16⟩
  | .local _ .vmem, ⟨30, _⟩ => ⟨S512x4096, .bf16⟩
  | .local _ .vmem, ⟨31, _⟩ => ⟨S1024x4096, .bf16⟩
  | .local _ .vmem, ⟨32, _⟩ => ⟨S1024x4096, .bf16⟩
  | .local _ .vmem, ⟨33, _⟩ => ⟨S1024, .f32⟩
  | .local _ .vmem, ⟨34, _⟩ => ⟨S1024, .f32⟩
  | .local _ .vmem, ⟨35, _⟩ => ⟨S512x1024, .bf16⟩
  | .local _ .vmem, ⟨36, _⟩ => ⟨S512x1024, .bf16⟩
  | .local _ .vmem, ⟨37, _⟩ => ⟨S512x4096, .bf16⟩
  | .local _ .vmem, ⟨38, _⟩ => ⟨S512x4096, .bf16⟩
  | .local _ .vmem, ⟨39, _⟩ => ⟨S1024x4096, .bf16⟩
  | .local _ .vmem, ⟨40, _⟩ => ⟨S1024x4096, .bf16⟩
  | .local _ .vmem, ⟨41, _⟩ => ⟨S1024, .f32⟩
  | .local _ .vmem, ⟨42, _⟩ => ⟨S1024, .f32⟩
  | .local _ .vmem, ⟨43, _⟩ => ⟨S512x1024, .bf16⟩
  | .local _ .vmem, ⟨44, _⟩ => ⟨S512x1024, .bf16⟩
  | .local _ .vmem, ⟨45, _⟩ => ⟨S512x4096, .bf16⟩
  | .local _ .vmem, ⟨46, _⟩ => ⟨S512x4096, .bf16⟩
  | .local _ .vmem, ⟨47, _⟩ => ⟨S1024x4096, .bf16⟩
  | .local _ .vmem, ⟨48, _⟩ => ⟨S1024x4096, .bf16⟩
  | .local _ .vmem, ⟨49, _⟩ => ⟨S1024, .f32⟩
  | .local _ .vmem, ⟨50, _⟩ => ⟨S1024, .f32⟩
  | .local _ .vmem, ⟨51, _⟩ => ⟨S512x1024, .bf16⟩
  | .local _ .vmem, ⟨52, _⟩ => ⟨S512x1024, .bf16⟩
  | .local _ .vmem, ⟨53, _⟩ => ⟨S1024x4096, .bf16⟩
  | .local _ .vmem, ⟨54, _⟩ => ⟨S1024x4096, .bf16⟩
  | .local _ .vmem, ⟨55, _⟩ => ⟨S1x4096, .f32⟩
  | .local _ .vmem, ⟨56, _⟩ => ⟨S1, .f32⟩
  | .local _ .vmem, ⟨57, _⟩ => ⟨S295, .f32⟩
  | .local _ .vmem, ⟨58, _⟩ => ⟨S1024x295, .f32⟩
  | .local _ .vmem, ⟨59, _⟩ => ⟨S1024x295, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem3_0 : DmaSem sig := 57
abbrev cc7_sem4_0 : DmaSem sig := 58
abbrev cc7_sem4_1 : DmaSem sig := 59

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![16, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![16, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![16, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 1 → Nat :=
  let arg0 : BitVec 32 := BitVec.ofNat 32 (i 0).val
  let arg1 : BitVec 32 := BitVec.ofNat 32 (i 1).val
  let c0_i32 : BitVec 32 := 0#32
  ![arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x4096 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S295 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1024x295 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reducesTo_S2048x2048_S2048_d0 : S2048x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  shapeCasts_S512x2048_S512x2048 : S512x2048.ShapeCasts S512x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  broadcasts_S1x4096_S1024x4096 : S1x4096.Broadcasts S1024x4096
  reduces_S1024x4096_S1024 : S1024x4096.Reduces [1] S1024
  shapeCasts_S1024_S1024x1 : S1024.ShapeCasts S1024x1
  inb_S1_S1_0 : ∀ a, (![0] : Fin 1 → Nat) a + S1.size a ≤ S1.size a
  h_S1 : 0 < S1.numel
  inpos_S1_p0 : ∀ a, (![0] : Fin 1 → Nat) a < S1.size a
  inb_S295_S295_0 : ∀ a, (![0] : Fin 1 → Nat) a + S295.size a ≤ S295.size a
  h_S295 : 0 < S295.numel
  shapeCasts_S295_S1x295 : S295.ShapeCasts S1x295
  broadcasts_S1024x1_S1024x295 : S1024x1.Broadcasts S1024x295
  broadcasts_S1x295_S1024x295 : S1x295.Broadcasts S1024x295
  inb_S1024x295_S1024x295_0_0 : ∀ a, (![0, 0] : Fin 2 → Nat) a + S1024x295.size a ≤ S1024x295.size a
  h_S1024x295 : 0 < S1024x295.numel
  dot_S512x512_S2048x512_S512x2048_1_1_0_0_n_n_wf : DotDims.WF S512x512 S2048x512 S512x2048 [1] [1] [0] [0] [] []
  dot_S256x2048_S256x2048_S2048x2048_0_0_1_1_n_n_wf : DotDims.WF S256x2048 S256x2048 S2048x2048 [0] [0] [1] [1] [] []
  dot_S1024x2048_S2048x2048_S1024x2048_1_1_0_0_n_n_wf : DotDims.WF S1024x2048 S2048x2048 S1024x2048 [1] [1] [0] [0] [] []
  dot_S512x2048_S1024x2048_S512x1024_1_1_0_0_n_n_wf : DotDims.WF S512x2048 S1024x2048 S512x1024 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .bf16 = 32 ∨ (Rect.block (s := S8192x2048) S512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .bf16 = 32 ∨ (Rect.block (s := S8192x2048) S512x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .bf16 = 32 ∨ (Rect.block (s := S8192x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .bf16 = 32 ∨ (Rect.block (s := S8192x2048) S256x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .f32 = 32 ∨ (Rect.block (s := S2048x2048) S2048x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S8192x2048.size a
  hwx2_2 : ∀ i : grid2.Coords, EltTy.bits .bf16 = 32 ∨ (Rect.block (s := S8192x2048) S1024x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .bf16 = 32 ∨ (Rect.block (s := S8192x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S4096x2048.size a
  hwx3_1 : ∀ i : grid3.Coords, EltTy.bits .bf16 = 32 ∨ (Rect.block (s := S4096x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S4096.size a
  hwx3_2 : ∀ i : grid3.Coords, EltTy.bits .f32 = 32 ∨ (Rect.block (s := S4096) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x4096.size a
  hwx3_3 : ∀ i : grid3.Coords, EltTy.bits .bf16 = 32 ∨ (Rect.block (s := S8192x4096) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S8192x4096.size a
  hwx4_0 : ∀ i : grid4.Coords, EltTy.bits .bf16 = 32 ∨ (Rect.block (s := S8192x4096) S512x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x4096.size a ≤ S4096x4096.size a
  hwx4_1 : ∀ i : grid4.Coords, EltTy.bits .bf16 = 32 ∨ (Rect.block (s := S4096x4096) S1024x4096.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x4096.size a
  hwx4_3 : ∀ i : grid4.Coords, EltTy.bits .bf16 = 32 ∨ (Rect.block (s := S8192x4096) S512x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S8192x4096.size a
  hwx5_0 : ∀ i : grid5.Coords, EltTy.bits .bf16 = 32 ∨ (Rect.block (s := S8192x4096) S512x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x4096.size a ≤ S4096x4096.size a
  hwx5_1 : ∀ i : grid5.Coords, EltTy.bits .bf16 = 32 ∨ (Rect.block (s := S4096x4096) S1024x4096.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024.size a ≤ S4096.size a
  hwx5_2 : ∀ i : grid5.Coords, EltTy.bits .f32 = 32 ∨ (Rect.block (s := S4096) S1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S8192x4096.size a
  hwx5_3 : ∀ i : grid5.Coords, EltTy.bits .bf16 = 32 ∨ (Rect.block (s := S8192x4096) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x4096.size a ≤ S8192x4096.size a
  hwx6_0 : ∀ i : grid6.Coords, EltTy.bits .bf16 = 32 ∨ (Rect.block (s := S8192x4096) S512x4096.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x4096.size a ≤ S4096x4096.size a
  hwx6_1 : ∀ i : grid6.Coords, EltTy.bits .bf16 = 32 ∨ (Rect.block (s := S4096x4096) S1024x4096.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024.size a ≤ S4096.size a
  hwx6_2 : ∀ i : grid6.Coords, EltTy.bits .f32 = 32 ∨ (Rect.block (s := S4096) S1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x1024.size a ≤ S8192x4096.size a
  hwx6_3 : ∀ i : grid6.Coords, EltTy.bits .bf16 = 32 ∨ (Rect.block (s := S8192x4096) S512x1024.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x4096.size a ≤ S8192x4096.size a
  hwx7_0 : ∀ i : grid7.Coords, EltTy.bits .bf16 = 32 ∨ (Rect.block (s := S8192x4096) S1024x4096.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x4096.size a ≤ S1x4096.size a
  hwx7_1 : ∀ i : grid7.Coords, EltTy.bits .f32 = 32 ∨ (Rect.block (s := S1x4096) S1x4096.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1.size a ≤ S1.size a
  hwx7_2 : ∀ i : grid7.Coords, EltTy.bits .f32 = 32 ∨ (Rect.block (s := S1) S1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S295.size a ≤ S295.size a
  hwx7_3 : ∀ i : grid7.Coords, EltTy.bits .f32 = 32 ∨ (Rect.block (s := S295) S295.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x295.size a ≤ S8192x295.size a
  hwx7_4 : ∀ i : grid7.Coords, EltTy.bits .f32 = 32 ∨ (Rect.block (s := S8192x295) S1024x295.size (cc7_transform_4 i) (hinb7_4 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S256x2048_S256x2048_S2048x2048_0_0_1_1_n_n : DotDims S256x2048 S256x2048 S2048x2048 where
  lhsContracting := [0]
  rhsContracting := [0]
  lhsNonContracting := [1]
  rhsNonContracting := [1]
  lhsBatch := []
  rhsBatch := []
  wf := dot_S256x2048_S256x2048_S2048x2048_0_0_1_1_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4_2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S1024x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v22) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S1024x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v24) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v24) S512x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v25) S1024x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v26) S512x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v26) S1024x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S1x4096.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg14) S1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S295.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v27) S1024x295.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S295 : Shape := ⟨1, ![295]⟩
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S2048x8192 : Shape := ⟨2, ![2048, 8192]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩
abbrev S2048x4096 : Shape := ⟨2, ![2048, 4096]⟩
abbrev S8192x4096 : Shape := ⟨2, ![8192, 4096]⟩
abbrev S4096x1 : Shape := ⟨2, ![4096, 1]⟩
abbrev S8192x1 : Shape := ⟨2, ![8192, 1]⟩
abbrev S1x1 : Shape := ⟨2, ![1, 1]⟩
abbrev S1x295 : Shape := ⟨2, ![1, 295]⟩
abbrev S8192x295 : Shape := ⟨2, ![8192, 295]⟩

abbrev nBuf : Space → Nat
  | .hbm => 83
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S295, .f32⟩
  | .hbm, ⟨5, _⟩ => ⟨S4096x2048, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1x4096, .f32⟩
  | .hbm, ⟨14, _⟩ => ⟨S1, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S8192x2048, .f32⟩
  | .hbm, ⟨34, _⟩ => ⟨S2048x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S4096x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S4096x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S4096x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S4096x1, .f32⟩
  | .hbm, ⟨67, _⟩ => ⟨S8192x1, .f32⟩
  | .hbm, ⟨68, _⟩ => ⟨S1x1, .f32⟩
  | .hbm, ⟨69, _⟩ => ⟨S8192x1, .f32⟩
  | .hbm, ⟨70, _⟩ => ⟨S8192x1, .f32⟩
  | .hbm, ⟨71, _⟩ => ⟨S1x295, .f32⟩
  | .hbm, ⟨72, _⟩ => ⟨S8192x295, .f32⟩
  | .hbm, ⟨73, _⟩ => ⟨S8192x295, .f32⟩
  | .hbm, ⟨74, _⟩ => ⟨S8192x295, .f32⟩
  | .hbm, ⟨75, _⟩ => ⟨S8192x295, .f32⟩
  | .hbm, ⟨76, _⟩ => ⟨S8192x295, .f32⟩
  | .hbm, ⟨77, _⟩ => ⟨S_, .f32⟩
  | .hbm, ⟨78, _⟩ => ⟨S8192x295, .f32⟩
  | .hbm, ⟨79, _⟩ => ⟨S8192x295, .f32⟩
  | .hbm, ⟨80, _⟩ => ⟨S_, .f32⟩
  | .hbm, ⟨81, _⟩ => ⟨S8192x295, .f32⟩
  | .hbm, ⟨82, _⟩ => ⟨S8192x295, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_cst : Ref sig .tc := ⟨.hbm, 47, rfl⟩
abbrev main_call1_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_2 : Ref sig .tc := ⟨.hbm, 77, rfl⟩
abbrev main_v51 : Ref sig .tc := ⟨.hbm, 78, rfl⟩
abbrev main_v52 : Ref sig .tc := ⟨.hbm, 79, rfl⟩
abbrev main_cst_3 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  reducesTo_S2048x2048_S2048_d0 : S2048x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S4096x4096_S4096x4096_1_0 : S4096x4096.Transposes [1, 0] S4096x4096
  transposes_S1x4096_S4096x1_1_0 : S1x4096.Transposes [1, 0] S4096x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S295_S1x295_1 : S295.BroadcastsInDim S1x295 (![1] : Fin 1 → Fin S1x295.rank)
  bcast_S8192x1_S8192x295_0_1 : S8192x1.BroadcastsInDim S8192x295 (![0, 1] : Fin 2 → Fin S8192x295.rank)
  bcast_S1x295_S8192x295_0_1 : S1x295.BroadcastsInDim S8192x295 (![0, 1] : Fin 2 → Fin S8192x295.rank)
  bcast_S_S8192x295 : S_.BroadcastsInDim S8192x295 (![] : Fin 0 → Fin S8192x295.rank)
  dot_S2048x512_S8192x512_S2048x8192_1_1_0_0_n_n_wf : DotDims.WF S2048x512 S8192x512 S2048x8192 [1] [1] [0] [0] [] []
  dot_S2048x8192_S2048x8192_S2048x2048_1_1_0_0_n_n_wf : DotDims.WF S2048x8192 S2048x8192 S2048x2048 [1] [1] [0] [0] [] []
  dot_S2048x8192_S2048x2048_S8192x2048_0_1_1_0_n_n_wf : DotDims.WF S2048x8192 S2048x2048 S8192x2048 [0] [1] [1] [0] [] []
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1_S8192x1_1_0_0_1_n_n_wf : DotDims.WF S8192x4096 S4096x1 S8192x1 [1] [0] [0] [1] [] []

variable [Facts₀]

def dot_S2048x512_S8192x512_S2048x8192_1_1_0_0_n_n : DotDims S2048x512 S8192x512 S2048x8192 where
  lhsContracting := [1]
  rhsContracting := [1]
  lhsNonContracting := [0]
  rhsNonContracting := [0]
  lhsBatch := []
  rhsBatch := []
  wf := dot_S2048x512_S8192x512_S2048x8192_1_1_0_0_n_n_wf
def dot_S2048x8192_S2048x8192_S2048x2048_1_1_0_0_n_n : DotDims S2048x8192 S2048x8192 S2048x2048 where
  lhsContracting := [1]
  rhsContracting := [1]
  lhsNonContracting := [0]
  rhsNonContracting := [0]
  lhsBatch := []
  rhsBatch := []
  wf := dot_S2048x8192_S2048x8192_S2048x2048_1_1_0_0_n_n_wf
def dot_S2048x8192_S2048x2048_S8192x2048_0_1_1_0_n_n : DotDims S2048x8192 S2048x2048 S8192x2048 where
  lhsContracting := [0]
  rhsContracting := [1]
  lhsNonContracting := [1]
  rhsNonContracting := [0]
  lhsBatch := []
  rhsBatch := []
  wf := dot_S2048x8192_S2048x2048_S8192x2048_0_1_1_0_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf

class Facts : Prop extends Facts₀ where

variable [Facts]
-- ==== Proof.Spec.lean ====
/-
  The mathematics both programs compute, as whole-array functions on the extended reals.

  The network: three projections of the tokens `x` (rows of `x` against rows of a weight matrix),
  unnormalised attention scores between attention channels (a contraction over all tokens), a softmax
  down each column of the scores, the value projection mixed by the softmax weights, four dense layers
  with a rectifier, and a one-row head whose scalar per token is spread over 295 biases and squashed by
  the logistic function.  Every matrix product here is a plain finite sum of products; no rounding
  enters, because a change of float format is the identity on the extended reals.
-/
import proofs.«118569_j13451837571471_1_alg».proof.Proof.Gen.KernelIdeal
import Idealize.ShloMosaic.Lib.ValueIdx

noncomputable section

open scoped BigOperators

namespace Cert.Spec

open Idealize.ShloMosaic Idealize.ShloMosaic.ValueIdx
open Cert.KernelIdeal Cert.KernelIdeal.Facts₀

/-- A real matrix of `r` rows and `k` columns, as a function of its index. -/
abbrev Mat (r k : Nat) : Type := (⟨2, ![r, k]⟩ : Shape).Idx → EReal
/-- A vector of `n` entries. -/
abbrev Row (n : Nat) : Type := (⟨1, ![n]⟩ : Shape).Idx → EReal

/-- `x · wᵀ`: entry `(p, q)` is the sum over `k` of `x[p, k] · w[q, k]` (both factors contracted on their
    second axis). -/
def mulT {r k n : Nat} (x : Mat r k) (w : Mat n k) : Mat r n :=
  fun i => ∑ j : Fin k, x (ix2 (n0 := r) (n1 := k) (i 0) j) * w (ix2 (n0 := n) (n1 := k) (i 1) j)

theorem mulT_apply {r k n : Nat} (x : Mat r k) (w : Mat n k) (p : Fin r) (q : Fin n) :
    mulT x w (ix2 p q) = ∑ j : Fin k, x (ix2 p j) * w (ix2 q j) := rfl

/-- `aᵀ · b`: entry `(p, q)` is the sum over `s` of `a[s, p] · b[s, q]` (both factors contracted on their
    first axis). -/
def tmul {k m n : Nat} (a : Mat k m) (b : Mat k n) : Mat m n :=
  fun i => ∑ s : Fin k, a (ix2 (n0 := k) (n1 := m) s (i 0)) * b (ix2 (n0 := k) (n1 := n) s (i 1))

theorem tmul_apply {k m n : Nat} (a : Mat k m) (b : Mat k n) (p : Fin m) (q : Fin n) :
    tmul a b (ix2 p q) = ∑ s : Fin k, a (ix2 s p) * b (ix2 s q) := rfl

/-- A dense layer with a rectifier: `max (x · wᵀ + bias, 0)`, the bias added along the rows. -/
def dense {r k n : Nat} (x : Mat r k) (w : Mat n k) (b : Row n) : Mat r n :=
  fun i => max (mulT x w i + b (ix1 (i 1))) 0

theorem dense_apply {r k n : Nat} (x : Mat r k) (w : Mat n k) (b : Row n) (p : Fin r) (q : Fin n) :
    dense x w b (ix2 p q) = max ((∑ j : Fin k, x (ix2 p j) * w (ix2 q j)) + b (ix1 q)) 0 := rfl

/-- The head: per token the scalar `h · woutᵀ + bout`, to which each of the `n` biases is added before the
    logistic function. -/
def head {r k n : Nat} (h : Mat r k) (wout : Mat 1 k) (bout : Row 1) (b : Row n) : Mat r n :=
  fun i => Ideal.logistic (((∑ j : Fin k, h (ix2 (n0 := r) (n1 := k) (i 0) j) * wout (ix2 (n0 := 1) (n1 := k) 0 j)) + bout (ix1 0)) + b (ix1 (i 1)))

theorem head_apply {r k n : Nat} (h : Mat r k) (wout : Mat 1 k) (bout : Row 1) (b : Row n) (p : Fin r) (q : Fin n) :
    head h wout bout b (ix2 p q) = Ideal.logistic (((∑ j : Fin k, h (ix2 p j) * wout (ix2 0 j)) + bout (ix1 0)) + b (ix1 q)) := rfl

/-- The exponentials of the scores shifted by their column maxima: the host operations of the softmax's numerator,
    in the order and spelling both programs print them. -/
def expShift (a : FVec Ideal S2048x2048 .f32) : FVec Ideal S2048x2048 .f32 :=
  Host.exp (subf a (broadcastInDim S2048x2048 ![0, 1] bcast_S1x2048_S2048x2048_0_1 (broadcastInDim S1x2048 ![1] bcast_S2048_S1x2048_1
    (maximumf (broadcastInDim S2048 ![] bcast_S_S2048 (constant S_ .f32 0xFF800000#32))
      (Host.reduce FloatOps.maximumf a (constant S_ .f32 0xFF800000#32) reducesTo_S2048x2048_S2048_d0 h_S_)))))

/-- The softmax down each column of the scores (over the first axis), as the same chain of host operations in both
    programs: it is carried as one function and never opened. -/
def softmax (a : FVec Ideal S2048x2048 .f32) : FVec Ideal S2048x2048 .f32 :=
  Host.divf (expShift a) (broadcastInDim S2048x2048 ![0, 1] bcast_S1x2048_S2048x2048_0_1 (broadcastInDim S1x2048 ![1] bcast_S2048_S1x2048_1
    (Host.reduceAdd (expShift a) (constant S_ .f32 0x00000000#32) reducesTo_S2048x2048_S2048_d0 h_S_)))

/-- The whole network as one function of its fifteen argument arrays. -/
def out (x : Mat 8192 512) (wq wk wv : Mat 2048 512) (b : Row 295) (w1 : Mat 4096 2048) (b1 : Row 4096)
    (w2 : Mat 4096 4096) (b2 : Row 4096) (w3 : Mat 4096 4096) (b3 : Row 4096) (w4 : Mat 4096 4096) (b4 : Row 4096)
    (wout : Mat 1 4096) (bout : Row 1) : Mat 8192 295 :=
  head (dense (dense (dense (dense (mulT (mulT x wv) (softmax (tmul (mulT x wq) (mulT x wk)))) w1 b1) w2 b2) w3 b3) w4 b4) wout bout b

end Cert.Spec

end
-- ==== Proof.R0.lean ====
/-
  Region 0 (the three projections): every point multiplies its 512 rows of the tokens by all of one weight matrix, so the three output arrays end as `x · wᵀ` whole.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One entry of a point's product

  The body contracts the second axis of its block of tokens against the second axis of a weight matrix:
  entry `(p, q)` of the product is the sum over `j` of `x[p, j] · w[q, j]`. -/

/-- The left factor's row is the entry's row. -/
theorem lhs_row (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- The left factor's column is the summation index. -/
theorem lhs_col (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- The right factor's row is the entry's column. -/
theorem rhs_row (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- The right factor's column is the summation index. -/
theorem rhs_col (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product into the zero accumulator, read at entry `(p, q)`: the plain sum of products along the two rows. -/
theorem prod_apply (x : FVec Ideal S512x512 .bf16) (w : FVec Ideal S2048x512 .bf16) (p : Fin 512) (q : Fin 2048) :
    FloatOps.matmul (F := Ideal) dot_S512x512_S2048x512_S512x2048_1_1_0_0_n_n none x w (constant S512x2048 .f32 0x00000000#32) (ix2 p q)
      = ∑ j : Fin 512, x (ix2 p j) * w (ix2 q j) := by
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k := funext fun a => Fin.ext (by
    match a with
    | ⟨0, _⟩ => exact lhs_row _ _
    | ⟨1, _⟩ => exact (lhs_col _ _).trans hk)
  have er : dot_S512x512_S2048x512_S512x2048_1_1_0_0_n_n.rhsIdx (ix2 p q) ((contrEquiv1 dot_S512x512_S2048x512_S512x2048_1_1_0_0_n_n 512 rfl rfl).symm k) = ix2 q k := funext fun a => Fin.ext (by
    match a with
    | ⟨0, _⟩ => exact rhs_row _ _
    | ⟨1, _⟩ => exact (rhs_col _ _).trans hk)
  rw [el, er]

/-- The three payloads are that product of the block of tokens and their weight matrix: the casts to the same
    shape and the narrowing of the float format are the identity on the extended reals. -/
theorem pay2_apply (x : Vec Ideal S512x512 .bf16) (w : Vec Ideal S2048x512 .bf16) (p : Fin 512) (q : Fin 2048) :
    k0_pay2 (F := Ideal) x w (ix2 p q) = ∑ j : Fin 512, x (ix2 p j) * w (ix2 q j) := by
  unfold k0_pay2 k0_pay1
  dsimp only
  rw [shapeCast_self, shapeCast_self]
  exact prod_apply x w p q
theorem pay3_apply (x : Vec Ideal S512x512 .bf16) (w : Vec Ideal S2048x512 .bf16) (p : Fin 512) (q : Fin 2048) :
    k0_pay3 (F := Ideal) x w (ix2 p q) = ∑ j : Fin 512, x (ix2 p j) * w (ix2 q j) := by
  unfold k0_pay3 k0_pay1
  dsimp only
  rw [shapeCast_self, shapeCast_self]
  exact prod_apply x w p q
theorem pay4_apply (x : Vec Ideal S512x512 .bf16) (w : Vec Ideal S2048x512 .bf16) (p : Fin 512) (q : Fin 2048) :
    k0_pay4 (F := Ideal) x w (ix2 p q) = ∑ j : Fin 512, x (ix2 p j) * w (ix2 q j) := by
  unfold k0_pay4 k0_pay1
  dsimp only
  rw [shapeCast_self, shapeCast_self]
  exact prod_apply x w p q

/-! ## From a point's block to the whole array

  Point `t` reads rows `512 t … 512 t + 511` of the tokens and all of a weight matrix, and writes rows
  `512 t … 512 t + 511` of an output array; the sixteen points' row blocks fill the array. -/

theorem zero_offsets : (![0, 0] : Fin 2 → Nat) = fun _ => 0 := funext fun a => by fin_cases a <;> rfl

/-- The block index maps over the grid's sixteen points: the tokens' and the outputs' block index is `(t, 0)`, a weight matrix's is `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

-- the TensorCore's buffer contents when the region is entered: a parameter
variable (V : (c : Dev nD) → (b : Ref sig .tc) → Buf (Elt Ideal) ((c : Thread nD τ).loc b))

/-- The tokens' block at point `t` is rows `512 t …` of the tokens. -/
theorem tokens_block (c : Dev nD) (t : Fin cfg0.N) (p j : Fin 512) (P : Fin 8192) (hP : P.val = t.val * 512 + p.val) :
    (iblk0 (F := Ideal) V c 0 t : Vec Ideal S512x512 .bf16) (ix2 p j) = (V c main_v0 : S8192x512.Idx → EReal) (ix2 P j) := by
  obtain ⟨e0, e1, -⟩ := block_indices t
  unfold iblk0
  rw [View.read_apply]
  show V c main_v0 _ = V c main_v0 _
  congr 1
  funext a
  apply Fin.ext
  match a with
  | ⟨0, _⟩ => show win0_0.index t (0 : Fin 2) * 512 + 1 * p.val = P.val; omega
  | ⟨1, _⟩ => show win0_0.index t (1 : Fin 2) * 512 + 1 * j.val = j.val; omega

/-- A weight matrix's block at any point is the whole matrix. -/
theorem weights1_block (c : Dev nD) (t : Fin cfg0.N) (q : Fin 2048) (j : Fin 512) :
    (iblk0 (F := Ideal) V c 1 t : Vec Ideal S2048x512 .bf16) (ix2 q j) = (V c main_v1 : S2048x512.Idx → EReal) (ix2 q j) := by
  obtain ⟨-, -, e0, e1, -⟩ := block_indices t
  unfold iblk0
  rw [View.read_apply]
  show V c main_v1 _ = V c main_v1 _
  congr 1
  funext a
  apply Fin.ext
  match a with
  | ⟨0, _⟩ => show win0_1.index t (0 : Fin 2) * 2048 + 1 * q.val = q.val; omega
  | ⟨1, _⟩ => show win0_1.index t (1 : Fin 2) * 512 + 1 * j.val = j.val; omega

/-- A weight matrix's block at any point is the whole matrix. -/
theorem weights2_block (c : Dev nD) (t : Fin cfg0.N) (q : Fin 2048) (j : Fin 512) :
    (iblk0 (F := Ideal) V c 2 t : Vec Ideal S2048x512 .bf16) (ix2 q j) = (V c main_v2 : S2048x512.Idx → EReal) (ix2 q j) := by
  obtain ⟨-, -, -, -, e0, e1, -⟩ := block_indices t
  unfold iblk0
  rw [View.read_apply]
  show V c main_v2 _ = V c main_v2 _
  congr 1
  funext a
  apply Fin.ext
  match a with
  | ⟨0, _⟩ => show win0_2.index t (0 : Fin 2) * 2048 + 1 * q.val = q.val; omega
  | ⟨1, _⟩ => show win0_2.index t (1 : Fin 2) * 512 + 1 * j.val = j.val; omega

/-- A weight matrix's block at any point is the whole matrix. -/
theorem weights3_block (c : Dev nD) (t : Fin cfg0.N) (q : Fin 2048) (j : Fin 512) :
    (iblk0 (F := Ideal) V c 3 t : Vec Ideal S2048x512 .bf16) (ix2 q j) = (V c main_v3 : S2048x512.Idx → EReal) (ix2 q j) := by
  obtain ⟨-, -, -, -, -, -, e0, e1, -⟩ := block_indices t
  unfold iblk0
  rw [View.read_apply]
  show V c main_v3 _ = V c main_v3 _
  congr 1
  funext a
  apply Fin.ext
  match a with
  | ⟨0, _⟩ => show win0_3.index t (0 : Fin 2) * 2048 + 1 * q.val = q.val; omega
  | ⟨1, _⟩ => show win0_3.index t (1 : Fin 2) * 512 + 1 * j.val = j.val; omega

/-- What point `t` writes back to the first output is block `t` of the tokens times that output's weight matrix transposed. -/
theorem flushed4_eq (c : Dev nD) (t : Fin cfg0.N) :
    (dat0 (F := Ideal) V c).flushed 4 t = ((cfg0.win 4).blk t).view.read (Elt Ideal) (Spec.mulT (r := 8192) (k := 512) (n := 2048) (V c main_v0) (V c main_v1)) := by
  show (cfg0.win 4).cut (grid0.coords t) ((dat0 V c).after 4 t) = _
  rw [after0_4]
  unfold out0_4
  rw [View.canon_unit_zero zero_offsets]
  simp only [View.ld_unit_zero (S := S512x512) zero_offsets, View.ld_unit_zero (S := S2048x512) zero_offsets]
  funext y
  obtain ⟨p, q, rfl⟩ : ∃ (p : Fin 512) (q : Fin 2048), (y : S512x2048.Idx) = ix2 p q := ⟨y 0, y 1, eq_ix2 (n0 := 512) (n1 := 2048) y⟩
  show k0_pay2 (F := Ideal) (iblk0 V c 0 t) (iblk0 V c 1 t) (ix2 p q) = Spec.mulT (r := 8192) (k := 512) (n := 2048) (V c main_v0) (V c main_v1) (((cfg0.win 4).blk t).view.emb (ix2 p q))
  refine (pay2_apply (iblk0 (F := Ideal) V c 0 t) (iblk0 (F := Ideal) V c 1 t) p q).trans ?_
  obtain ⟨-, -, -, -, -, -, -, -, e0, e1, -⟩ := block_indices t
  have hN : cfg0.N = 16 := N_0
  have hP : t.val * 512 + p.val < 8192 := by have := t.isLt; omega
  have hemb : ((cfg0.win 4).blk t).view.emb (ix2 p q) = ix2 (n0 := 8192) (n1 := 2048) ⟨t.val * 512 + p.val, hP⟩ q := by
    funext a; apply Fin.ext
    match a with
    | ⟨0, _⟩ => show win0_4.index t (0 : Fin 2) * 512 + 1 * p.val = t.val * 512 + p.val; omega
    | ⟨1, _⟩ => show win0_4.index t (1 : Fin 2) * 2048 + 1 * q.val = q.val; omega
  rw [hemb, Spec.mulT_apply]
  exact Finset.sum_congr rfl fun j _ => by rw [tokens_block V c t p j ⟨_, hP⟩ rfl, weights1_block V c t q j]

/-- An index of the first output array is in point `t`'s block iff each coordinate is in the block's range on its axis. -/
theorem mem_block4 (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4_0).slice (win0_4.rect t)).set ↔ _
  rw [View.set_slice_whole, Rect.mem_set_unit]
  exact Iff.rfl

/-- Row `r` of the first output array is written by point `r / 512`. -/
theorem covered4 (i : S8192x2048.Idx) : ∃ t : Fin cfg0.N, (cfg0.win 4).flush t = true ∧ i ∈ ((cfg0.win 4).blk t).view.set := by
  have hN : cfg0.N = 16 := N_0
  have hi0 : (i 0).val < 8192 := (i 0).isLt
  have hi1 : (i 1).val < 2048 := (i 1).isLt
  obtain ⟨t, tv⟩ : ∃ t : Fin cfg0.N, t.val = (i 0).val / 512 := ⟨⟨(i 0).val / 512, by omega⟩, rfl⟩
  obtain ⟨-, -, -, -, -, -, -, -, e0, e1, -⟩ := block_indices t
  refine ⟨t, flush0_4 t, ?_⟩
  rw [mem_block4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- What point `t` writes back to the second output is block `t` of the tokens times that output's weight matrix transposed. -/
theorem flushed5_eq (c : Dev nD) (t : Fin cfg0.N) :
    (dat0 (F := Ideal) V c).flushed 5 t = ((cfg0.win 5).blk t).view.read (Elt Ideal) (Spec.mulT (r := 8192) (k := 512) (n := 2048) (V c main_v0) (V c main_v2)) := by
  show (cfg0.win 5).cut (grid0.coords t) ((dat0 V c).after 5 t) = _
  rw [after0_5]
  unfold out0_5
  rw [View.canon_unit_zero zero_offsets]
  simp only [View.ld_unit_zero (S := S512x512) zero_offsets, View.ld_unit_zero (S := S2048x512) zero_offsets]
  funext y
  obtain ⟨p, q, rfl⟩ : ∃ (p : Fin 512) (q : Fin 2048), (y : S512x2048.Idx) = ix2 p q := ⟨y 0, y 1, eq_ix2 (n0 := 512) (n1 := 2048) y⟩
  show k0_pay3 (F := Ideal) (iblk0 V c 0 t) (iblk0 V c 2 t) (ix2 p q) = Spec.mulT (r := 8192) (k := 512) (n := 2048) (V c main_v0) (V c main_v2) (((cfg0.win 5).blk t).view.emb (ix2 p q))
  refine (pay3_apply (iblk0 (F := Ideal) V c 0 t) (iblk0 (F := Ideal) V c 2 t) p q).trans ?_
  obtain ⟨-, -, -, -, -, -, -, -, -, -, e0, e1, -⟩ := block_indices t
  have hN : cfg0.N = 16 := N_0
  have hP : t.val * 512 + p.val < 8192 := by have := t.isLt; omega
  have hemb : ((cfg0.win 5).blk t).view.emb (ix2 p q) = ix2 (n0 := 8192) (n1 := 2048) ⟨t.val * 512 + p.val, hP⟩ q := by
    funext a; apply Fin.ext
    match a with
    | ⟨0, _⟩ => show win0_5.index t (0 : Fin 2) * 512 + 1 * p.val = t.val * 512 + p.val; omega
    | ⟨1, _⟩ => show win0_5.index t (1 : Fin 2) * 2048 + 1 * q.val = q.val; omega
  rw [hemb, Spec.mulT_apply]
  exact Finset.sum_congr rfl fun j _ => by rw [tokens_block V c t p j ⟨_, hP⟩ rfl, weights2_block V c t q j]

/-- An index of the second output array is in point `t`'s block iff each coordinate is in the block's range on its axis. -/
theorem mem_block5 (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v4_1).slice (win0_5.rect t)).set ↔ _
  rw [View.set_slice_whole, Rect.mem_set_unit]
  exact Iff.rfl

/-- Row `r` of the second output array is written by point `r / 512`. -/
theorem covered5 (i : S8192x2048.Idx) : ∃ t : Fin cfg0.N, (cfg0.win 5).flush t = true ∧ i ∈ ((cfg0.win 5).blk t).view.set := by
  have hN : cfg0.N = 16 := N_0
  have hi0 : (i 0).val < 8192 := (i 0).isLt
  have hi1 : (i 1).val < 2048 := (i 1).isLt
  obtain ⟨t, tv⟩ : ∃ t : Fin cfg0.N, t.val = (i 0).val / 512 := ⟨⟨(i 0).val / 512, by omega⟩, rfl⟩
  obtain ⟨-, -, -, -, -, -, -, -, -, -, e0, e1, -⟩ := block_indices t
  refine ⟨t, flush0_5 t, ?_⟩
  rw [mem_block5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- What point `t` writes back to the third output is block `t` of the tokens times that output's weight matrix transposed. -/
theorem flushed6_eq (c : Dev nD) (t : Fin cfg0.N) :
    (dat0 (F := Ideal) V c).flushed 6 t = ((cfg0.win 6).blk t).view.read (Elt Ideal) (Spec.mulT (r := 8192) (k := 512) (n := 2048) (V c main_v0) (V c main_v3)) := by
  show (cfg0.win 6).cut (grid0.coords t) ((dat0 V c).after 6 t) = _
  rw [after0_6]
  unfold out0_6
  rw [View.canon_unit_zero zero_offsets]
  simp only [View.ld_unit_zero (S := S512x512) zero_offsets, View.ld_unit_zero (S := S2048x512) zero_offsets]
  funext y
  obtain ⟨p, q, rfl⟩ : ∃ (p : Fin 512) (q : Fin 2048), (y : S512x2048.Idx) = ix2 p q := ⟨y 0, y 1, eq_ix2 (n0 := 512) (n1 := 2048) y⟩
  show k0_pay4 (F := Ideal) (iblk0 V c 0 t) (iblk0 V c 3 t) (ix2 p q) = Spec.mulT (r := 8192) (k := 512) (n := 2048) (V c main_v0) (V c main_v3) (((cfg0.win 6).blk t).view.emb (ix2 p q))
  refine (pay4_apply (iblk0 (F := Ideal) V c 0 t) (iblk0 (F := Ideal) V c 3 t) p q).trans ?_
  obtain ⟨-, -, -, -, -, -, -, -, -, -, -, -, e0, e1⟩ := block_indices t
  have hN : cfg0.N = 16 := N_0
  have hP : t.val * 512 + p.val < 8192 := by have := t.isLt; omega
  have hemb : ((cfg0.win 6).blk t).view.emb (ix2 p q) = ix2 (n0 := 8192) (n1 := 2048) ⟨t.val * 512 + p.val, hP⟩ q := by
    funext a; apply Fin.ext
    match a with
    | ⟨0, _⟩ => show win0_6.index t (0 : Fin 2) * 512 + 1 * p.val = t.val * 512 + p.val; omega
    | ⟨1, _⟩ => show win0_6.index t (1 : Fin 2) * 2048 + 1 * q.val = q.val; omega
  rw [hemb, Spec.mulT_apply]
  exact Finset.sum_congr rfl fun j _ => by rw [tokens_block V c t p j ⟨_, hP⟩ rfl, weights3_block V c t q j]

/-- An index of the third output array is in point `t`'s block iff each coordinate is in the block's range on its axis. -/
theorem mem_block6 (t : Fin cfg0.N) (i : S8192x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v4_2).slice (win0_6.rect t)).set ↔ _
  rw [View.set_slice_whole, Rect.mem_set_unit]
  exact Iff.rfl

/-- Row `r` of the third output array is written by point `r / 512`. -/
theorem covered6 (i : S8192x2048.Idx) : ∃ t : Fin cfg0.N, (cfg0.win 6).flush t = true ∧ i ∈ ((cfg0.win 6).blk t).view.set := by
  have hN : cfg0.N = 16 := N_0
  have hi0 : (i 0).val < 8192 := (i 0).isLt
  have hi1 : (i 1).val < 2048 := (i 1).isLt
  obtain ⟨t, tv⟩ : ∃ t : Fin cfg0.N, t.val = (i 0).val / 512 := ⟨⟨(i 0).val / 512, by omega⟩, rfl⟩
  obtain ⟨-, -, -, -, -, -, -, -, -, -, -, -, e0, e1⟩ := block_indices t
  refine ⟨t, flush0_6 t, ?_⟩
  rw [mem_block6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

theorem arr4 (c : Dev nD) :
    (dat0 (F := Ideal) V c).arrAt 4 cfg0.N = Spec.mulT (r := 8192) (k := 512) (n := 2048) (V c main_v0) (V c main_v1) := by
  exact (dat0 (F := Ideal) V c).arrAt_eq_of_cover 4 _ (fun t _ => flushed4_eq V c t) (fun i => covered4 i)

theorem arr5 (c : Dev nD) :
    (dat0 (F := Ideal) V c).arrAt 5 cfg0.N = Spec.mulT (r := 8192) (k := 512) (n := 2048) (V c main_v0) (V c main_v2) := by
  exact (dat0 (F := Ideal) V c).arrAt_eq_of_cover 5 _ (fun t _ => flushed5_eq V c t) (fun i => covered5 i)

theorem arr6 (c : Dev nD) :
    (dat0 (F := Ideal) V c).arrAt 6 cfg0.N = Spec.mulT (r := 8192) (k := 512) (n := 2048) (V c main_v0) (V c main_v3) := by
  exact (dat0 (F := Ideal) V c).arrAt_eq_of_cover 6 _ (fun t _ => flushed6_eq V c t) (fun i => covered6 i)

end Cert.KernelIdeal.R0

end
-- ==== Proof.R1.lean ====
/-
  Region 1 (the attention scores): 32 points each add the product of their 256 token rows to one carried 2048 × 2048 block, zeroed at the first point and written back at the last; the array ends as the contraction over all 8192 tokens.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offsets of a whole-block store or load. -/
private theorem hz : (![0, 0] : Fin 2 → Nat) = fun _ => 0 := funext fun a => by fin_cases a <;> rfl

/-! ## The body's product read at an index

The dot record contracts the FIRST axis of both operands; the second axis of the left operand is the result's row,
the second axis of the right operand the result's column. -/

private theorem lhs_axis0 (i : S2048x2048.Idx) (q : dot_S256x2048_S256x2048_S2048x2048_0_0_1_1_n_n.contr.Idx) :
    (dot_S256x2048_S256x2048_S2048x2048_0_0_1_1_n_n.lhsIdx i q 0).val = (q ⟨0, by decide⟩).val :=
  dot_S256x2048_S256x2048_S2048x2048_0_0_1_1_n_n.lhsIdx_val_of_single rfl i q
private theorem lhs_axis1 (i : S2048x2048.Idx) (q : dot_S256x2048_S256x2048_S2048x2048_0_0_1_1_n_n.contr.Idx) :
    (dot_S256x2048_S256x2048_S2048x2048_0_0_1_1_n_n.lhsIdx i q 1).val = (i 0).val := by
  unfold DotDims.lhsIdx
  rw [dif_neg (show ¬(1 : Fin S256x2048.rank) ∈ dot_S256x2048_S256x2048_S2048x2048_0_0_1_1_n_n.lhsBatch by decide), dif_pos (show (1 : Fin S256x2048.rank) ∈ dot_S256x2048_S256x2048_S2048x2048_0_0_1_1_n_n.lhsNonContracting by decide)]
  rfl
private theorem rhs_axis0 (i : S2048x2048.Idx) (q : dot_S256x2048_S256x2048_S2048x2048_0_0_1_1_n_n.contr.Idx) :
    (dot_S256x2048_S256x2048_S2048x2048_0_0_1_1_n_n.rhsIdx i q 0).val = (q ⟨0, by decide⟩).val :=
  dot_S256x2048_S256x2048_S2048x2048_0_0_1_1_n_n.rhsIdx_val_of_single rfl i q
private theorem rhs_axis1 (i : S2048x2048.Idx) (q : dot_S256x2048_S256x2048_S2048x2048_0_0_1_1_n_n.contr.Idx) :
    (dot_S256x2048_S256x2048_S2048x2048_0_0_1_1_n_n.rhsIdx i q 1).val = (i 1).val := by
  unfold DotDims.rhsIdx
  rw [dif_neg (show ¬(1 : Fin S256x2048.rank) ∈ dot_S256x2048_S256x2048_S2048x2048_0_0_1_1_n_n.rhsBatch by decide), dif_pos (show (1 : Fin S256x2048.rank) ∈ dot_S256x2048_S256x2048_S2048x2048_0_0_1_1_n_n.rhsNonContracting by decide)]
  rfl

/-- Into the zero block the product at (p, q) is the sum over the 256 rows r of x0[r, p] · x1[r, q]. -/
private theorem prod_apply (x0 x1 : FVec Ideal S256x2048 .bf16) (p q : Fin 2048) :
    matmul (F := Ideal) dot_S256x2048_S256x2048_S2048x2048_0_0_1_1_n_n none x0 x1 (constant S2048x2048 .f32 0x00000000#32) (ix2 p q)
      = ∑ r : Fin 256, x0 (ix2 r p) * x1 (ix2 r q) := by
  simp only [matmul]
  rw [Ideal.matmul_constant_zero_apply, ← Equiv.sum_comp (contrEquiv1 dot_S256x2048_S256x2048_S2048x2048_0_0_1_1_n_n 256 rfl rfl).symm]
  refine Finset.sum_congr rfl fun k _ => ?_
  have hk := contrEquiv1_symm_val dot_S256x2048_S256x2048_S2048x2048_0_0_1_1_n_n 256 rfl rfl k
  have el : dot_S256x2048_S256x2048_S2048x2048_0_0_1_1_n_n.lhsIdx (ix2 p q) ((contrEquiv1 dot_S256x2048_S256x2048_S2048x2048_0_0_1_1_n_n 256 rfl rfl).symm k) = ix2 k p := funext fun a => Fin.ext (by
    match a with
    | ⟨0, _⟩ => exact (lhs_axis0 _ _).trans hk
    | ⟨1, _⟩ => exact lhs_axis1 _ _)
  have er : dot_S256x2048_S256x2048_S2048x2048_0_0_1_1_n_n.rhsIdx (ix2 p q) ((contrEquiv1 dot_S256x2048_S256x2048_S2048x2048_0_0_1_1_n_n 256 rfl rfl).symm k) = ix2 k q := funext fun a => Fin.ext (by
    match a with
    | ⟨0, _⟩ => exact (rhs_axis0 _ _).trans hk
    | ⟨1, _⟩ => exact rhs_axis1 _ _)
  rw [el, er]

/-- The update's payload at (p, q): the carried entry plus the product's. -/
private theorem update_apply (acc : Vec Ideal S2048x2048 .f32) (x0 x1 : Vec Ideal S256x2048 .bf16) (p q : Fin 2048) :
    k1_pay2 (F := Ideal) acc x0 x1 (ix2 p q) = acc (ix2 p q) + ∑ r : Fin 256, x0 (ix2 r p) * x1 (ix2 r q) := by
  unfold k1_pay2
  simp only [shapeCast_self]
  exact congrArg (acc (ix2 p q) + ·) (prod_apply x0 x1 p q)

/-- The reset's payload is zero everywhere. -/
private theorem reset_apply (j : S2048x2048.Idx) : k1_pay1 (F := Ideal) j = 0 := by
  unfold k1_pay1
  exact Ideal.ofBits_zero_f32

/-! ## What each control case leaves in the carried block -/

/-- Away from the first point the body leaves the update of what the point before left. -/
private theorem carried_B {F : FTy → Type} [FloatOps F] (c : Dev nD) (i : grid1.Coords)
    (a1 : Memref sig .tc .vmem S256x2048 .bf16) (h1 : a1.IsWhole) (a2 : Memref sig .tc .vmem S256x2048 .bf16) (h2 : a2.IsWhole)
    (a3 : Memref sig .tc .vmem S2048x2048 .f32) (h3 : a3.IsWhole) (hc : ¬cond1_0 i)
    (x0 x1 : Vec F S256x2048 .bf16) (xo : Vec F S2048x2048 .f32) :
    out1_B_2 (F := F) c i a1 h1 a2 h2 a3 h3 hc x0 x1 xo = k1_pay2 xo x0 x1 := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S256x2048) hz,
    View.ld_unit_zero (S := S2048x2048) hz]

/-- At the first point the body stores zeros, reads them back and leaves their update. -/
private theorem carried_A {F : FTy → Type} [FloatOps F] (c : Dev nD) (i : grid1.Coords)
    (a1 : Memref sig .tc .vmem S256x2048 .bf16) (h1 : a1.IsWhole) (a2 : Memref sig .tc .vmem S256x2048 .bf16) (h2 : a2.IsWhole)
    (a3 : Memref sig .tc .vmem S2048x2048 .f32) (h3 : a3.IsWhole) (hc : cond1_0 i)
    (x0 x1 : Vec F S256x2048 .bf16) :
    out1_A_2 (F := F) c i a1 h1 a2 h2 a3 h3 hc x0 x1 = k1_pay2 k1_pay1 x0 x1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S2048x2048) hz, View.readCov_unit_zero (S := S2048x2048) _ hz]
  simp only [View.readAt_eq_ld, h1.read_unread, h2.read_unread, View.ld_unit_zero (S := S256x2048) hz]

-- the TensorCore's buffer contents when the region is entered: a parameter
variable (V : (c : Dev nD) → (b : Ref sig .tc) → Buf (Elt Ideal) ((c : Thread nD τ).loc b))

/-! ## The arrays, the blocks, and the products summed over tokens -/

/-- The two input arrays (tokens × channels), as the region finds them. -/
private abbrev qarr (c : Dev nD) : Spec.Mat 8192 2048 := V c main_v4_0
private abbrev karr (c : Dev nD) : Spec.Mat 8192 2048 := V c main_v4_1
/-- Their blocks of 256 token rows at point t. -/
private abbrev qblk (c : Dev nD) (t : Fin cfg1.N) : Vec Ideal S256x2048 .bf16 := iblk1 V c 0 t
private abbrev kblk (c : Dev nD) (t : Fin cfg1.N) : Vec Ideal S256x2048 .bf16 := iblk1 V c 1 t

/-- The block index maps, decided over the 32 points: an input block's row index is the point, its column index 0;
    the output block's index is (0, 0) throughout. -/
private theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row r of point t's block of the first array is token 256 t + r. -/
private theorem qblk_apply (c : Dev nD) (t : Fin cfg1.N) (r : Fin 256) (p : Fin 2048) (h : 256 * t.val + r.val < 8192) :
    qblk V c t (ix2 r p) = qarr V c (ix2 ⟨256 * t.val + r.val, h⟩ p) := by
  obtain ⟨e0, e1, e2, e3, e4, e5⟩ := idx_facts t
  show V c main_v4_0 (((cfg1.win 0).blk t).view.emb (ix2 r p)) = V c main_v4_0 (ix2 ⟨256 * t.val + r.val, h⟩ p)
  refine congrArg (V c main_v4_0) (funext fun a => Fin.ext ?_)
  match a with
  | ⟨0, _⟩ => show win1_0.index t (0 : Fin 2) * 256 + 1 * r.val = 256 * t.val + r.val; omega
  | ⟨1, _⟩ => show win1_0.index t (1 : Fin 2) * 2048 + 1 * p.val = p.val; omega

/-- The same for the second array. -/
private theorem kblk_apply (c : Dev nD) (t : Fin cfg1.N) (r : Fin 256) (p : Fin 2048) (h : 256 * t.val + r.val < 8192) :
    kblk V c t (ix2 r p) = karr V c (ix2 ⟨256 * t.val + r.val, h⟩ p) := by
  obtain ⟨e0, e1, e2, e3, e4, e5⟩ := idx_facts t
  show V c main_v4_1 (((cfg1.win 1).blk t).view.emb (ix2 r p)) = V c main_v4_1 (ix2 ⟨256 * t.val + r.val, h⟩ p)
  refine congrArg (V c main_v4_1) (funext fun a => Fin.ext ?_)
  match a with
  | ⟨0, _⟩ => show win1_1.index t (0 : Fin 2) * 256 + 1 * r.val = 256 * t.val + r.val; omega
  | ⟨1, _⟩ => show win1_1.index t (1 : Fin 2) * 2048 + 1 * p.val = p.val; omega

/-- The summand of entry (p, q) at token s: the product of the two arrays' entries in row s (zero past the last token). -/
private def term (c : Dev nD) (p q : Fin 2048) (s : ℕ) : EReal :=
  if h : s < 8192 then qarr V c (ix2 ⟨s, h⟩ p) * karr V c (ix2 ⟨s, h⟩ q) else 0

/-- Point t's product at (p, q) is the sum of the summands over its 256 tokens. -/
private theorem blk_sum (c : Dev nD) (t : Fin cfg1.N) (p q : Fin 2048) :
    (∑ r : Fin 256, qblk V c t (ix2 r p) * kblk V c t (ix2 r q) : EReal) = ∑ r ∈ Finset.range 256, term V c p q (256 * t.val + r) := by
  have hN : t.val < 32 := lt_of_lt_of_eq t.isLt (show cfg1.N = 32 from N_1)
  rw [Finset.sum_range]
  refine Finset.sum_congr rfl fun r _ => ?_
  have h : 256 * t.val + r.val < 8192 := by have := r.isLt; omega
  rw [qblk_apply V c t r p h, kblk_apply V c t r q h]
  unfold term
  rw [dif_pos h]

/-! ## The carried block after each point -/

/-- At the first point the carried block is the update of the zero block by the point's rows. -/
private theorem carried_first (c : Dev nD) (t : Fin cfg1.N) (h0 : t.val % 32 = 0) :
    outsAt1 V c t.val t.isLt = k1_pay2 k1_pay1 (qblk V c t) (kblk V c t) := by
  rw [outsAt1_A V c t h0]
  exact carried_A (F := Ideal) c (grid1.coords t) (ms1_0 t) (hs1_0 t) (ms1_1 t) (hs1_1 t) (ms1_2 t) (hs1_2 t)
    ((hcond1_0 t).mpr h0) (iblk1 V c 0 t) (iblk1 V c 1 t)

/-- At a later point it is the update, by the point's rows, of what the point before left. -/
private theorem carried_next (c : Dev nD) (t : Fin cfg1.N) (h0 : ¬t.val % 32 = 0) :
    outsAt1 V c t.val t.isLt
      = k1_pay2 (outsAt1 V c (t.val - 1) (Nat.lt_of_le_of_lt (Nat.sub_le _ _) t.isLt)) (qblk V c t) (kblk V c t) := by
  rw [outsAt1_B V c t h0]
  exact carried_B (F := Ideal) c (grid1.coords t) (ms1_0 t) (hs1_0 t) (ms1_1 t) (hs1_1 t) (ms1_2 t) (hs1_2 t)
    (fun h => h0 ((hcond1_0 t).mp h)) (iblk1 V c 0 t) (iblk1 V c 1 t)
    (outsAt1 V c (t.val - 1) (Nat.lt_of_le_of_lt (Nat.sub_le _ _) t.isLt))

/-- After point n the carried block at (p, q) is the sum of the summands over the first 256 (n + 1) tokens:
    by induction on the point, the sum over a range split at the point's first token. -/
private theorem carried_eq (c : Dev nD) (p q : Fin 2048) : ∀ (n : ℕ) (h : n < cfg1.N),
    outsAt1 V c n h (ix2 p q) = ∑ s ∈ Finset.range (256 * (n + 1)), term V c p q s := by
  intro n
  induction n with
  | zero =>
    intro h
    refine (congrFun (carried_first V c ⟨0, h⟩ rfl) (ix2 p q)).trans ?_
    refine (update_apply (k1_pay1 (F := Ideal)) (qblk V c ⟨0, h⟩) (kblk V c ⟨0, h⟩) p q).trans ?_
    rw [reset_apply, zero_add]
    refine (blk_sum V c ⟨0, h⟩ p q).trans ?_
    exact Finset.sum_congr rfl fun r _ => congrArg (term V c p q) (by show 256 * 0 + r = r; omega)
  | succ n ih =>
    intro h
    have hN : cfg1.N = 32 := N_1
    have hB : ¬(⟨n + 1, h⟩ : Fin cfg1.N).val % 32 = 0 := by dsimp only; omega
    refine (congrFun (carried_next V c ⟨n + 1, h⟩ hB) (ix2 p q)).trans ?_
    refine (update_apply _ (qblk V c ⟨n + 1, h⟩) (kblk V c ⟨n + 1, h⟩) p q).trans ?_
    rw [show 256 * (n + 1 + 1) = 256 * (n + 1) + 256 by ring, Finset.sum_range_add]
    refine congrArg₂ (· + ·) (ih (Nat.lt_of_succ_lt h)) ?_
    exact blk_sum V c ⟨n + 1, h⟩ p q

/-- After the last point it is the whole contraction over the 8192 tokens. -/
private theorem carried_last (c : Dev nD) (t : Fin cfg1.N) (h31 : t.val = 31) :
    outsAt1 V c t.val t.isLt = Spec.tmul (k := 8192) (m := 2048) (n := 2048) (qarr V c) (karr V c) := by
  funext j
  obtain ⟨p, q, rfl⟩ : ∃ (p : Fin 2048) (q : Fin 2048), j = ix2 p q := ⟨j 0, j 1, eq_ix2 j⟩
  rw [carried_eq V c p q t.val t.isLt, h31, Spec.tmul_apply]
  show ∑ s ∈ Finset.range 8192, term V c p q s = _
  rw [Finset.sum_range]
  exact Finset.sum_congr rfl fun s _ => by unfold term; rw [dif_pos s.isLt]

/-! ## The array after the region -/

/-- The one write-back, at the last point, writes the contraction: the output's block is the whole array. -/
private theorem flushed_eq (c : Dev nD) (t : Fin cfg1.N) (hf : (cfg1.win 2).flush t = true) :
    (dat1 (F := Ideal) V c).flushed 2 t
      = ((cfg1.win 2).blk t).view.read (Elt Ideal) (Spec.tmul (k := 8192) (m := 2048) (n := 2048) (qarr V c) (karr V c)) := by
  have hN : t.val < 32 := lt_of_lt_of_eq t.isLt (show cfg1.N = 32 from N_1)
  have h31 : t.val = 31 := by have := (flush1_2 t).mp hf; omega
  obtain ⟨e0, e1, e2, e3, e4, e5⟩ := idx_facts t
  show (cfg1.win 2).cut (grid1.coords t) ((dat1 V c).after 2 t) = _
  rw [after1_2, carried_last V c t h31]
  have hz' : (fun a => win1_2.index t a * main_v5.ty.shape.size a) = fun _ => 0 := funext fun a => by
    match a with
    | ⟨0, _⟩ => show win1_2.index t (0 : Fin 2) * 2048 = 0; omega
    | ⟨1, _⟩ => show win1_2.index t (1 : Fin 2) * 2048 = 0; omega
  exact (Memref.read_access_unit_zero (Elt Ideal) main_v5 hz' (fun a => by rw [congrFun hz' a]; simp)
    (Spec.tmul (k := 8192) (m := 2048) (n := 2048) (qarr V c) (karr V c))).symm

theorem arr2 (c : Dev nD) :
    (dat1 (F := Ideal) V c).arrAt 2 cfg1.N = Spec.tmul (k := 8192) (m := 2048) (n := 2048) (V c main_v4_0) (V c main_v4_1) := by
  have hlast : (31 : ℕ) < cfg1.N := by rw [show cfg1.N = 32 from N_1]; decide
  refine (dat1 (F := Ideal) V c).arrAt_eq_of_cover 2 _ (fun t hf => flushed_eq V c t hf) fun i => ?_
  refine ⟨⟨31, hlast⟩, (flush1_2 _).mpr rfl, ?_⟩
  obtain ⟨e0, e1, e2, e3, e4, e5⟩ := idx_facts ⟨31, hlast⟩
  show i ∈ ((View.whole main_v5).slice (win1_2.rect ⟨31, hlast⟩)).set
  rw [View.set_slice_whole, Rect.mem_set_unit]
  intro a
  have h0 : (i 0 : ℕ) < 2048 := (i 0).isLt
  have h1 : (i 1 : ℕ) < 2048 := (i 1).isLt
  match a with
  | ⟨0, _⟩ =>
    show win1_2.index ⟨31, hlast⟩ (0 : Fin 2) * 2048 ≤ (i 0 : ℕ) ∧ (i 0 : ℕ) < win1_2.index ⟨31, hlast⟩ (0 : Fin 2) * 2048 + 2048
    omega
  | ⟨1, _⟩ =>
    show win1_2.index ⟨31, hlast⟩ (1 : Fin 2) * 2048 ≤ (i 1 : ℕ) ∧ (i 1 : ℕ) < win1_2.index ⟨31, hlast⟩ (1 : Fin 2) * 2048 + 2048
    omega

end Cert.KernelIdeal.R1

end
-- ==== Proof.R2.lean ====
/-
  Region 2 (the context): every point multiplies its 1024 rows of the value projection by the whole softmax matrix.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One entry of a block's product

The body contracts the second axis of its 1024 × 2048 block of value rows against the second axis of the
2048 × 2048 weight matrix: entry (p, q) is the sum over j of block[p, j] · weights[q, j]. -/

/-- The record of the contraction (left rows × right rows, both contracted on their second axis). -/
abbrev ctxDot : DotDims S1024x2048 S2048x2048 S1024x2048 := dot_S1024x2048_S2048x2048_S1024x2048_1_1_0_0_n_n

/-- The left factor's first coordinate is the entry's row. -/
theorem lhs_ctx_0 (i : S1024x2048.Idx) (q : dot_S1024x2048_S2048x2048_S1024x2048_1_1_0_0_n_n.contr.Idx) :
    (dot_S1024x2048_S2048x2048_S1024x2048_1_1_0_0_n_n.lhsIdx i q 0).val = (i 0).val := by
  unfold DotDims.lhsIdx
  rw [dif_neg (show ¬(0 : Fin S1024x2048.rank) ∈ dot_S1024x2048_S2048x2048_S1024x2048_1_1_0_0_n_n.lhsBatch by decide), dif_pos (show (0 : Fin S1024x2048.rank) ∈ dot_S1024x2048_S2048x2048_S1024x2048_1_1_0_0_n_n.lhsNonContracting by decide)]
  rfl
/-- The left factor's second coordinate is the summation index. -/
theorem lhs_ctx_1 (i : S1024x2048.Idx) (q : dot_S1024x2048_S2048x2048_S1024x2048_1_1_0_0_n_n.contr.Idx) :
    (dot_S1024x2048_S2048x2048_S1024x2048_1_1_0_0_n_n.lhsIdx i q 1).val = (q ⟨0, by decide⟩).val :=
  dot_S1024x2048_S2048x2048_S1024x2048_1_1_0_0_n_n.lhsIdx_val_of_single rfl i q
/-- The right factor's first coordinate is the entry's column. -/
theorem rhs_ctx_0 (i : S1024x2048.Idx) (q : dot_S1024x2048_S2048x2048_S1024x2048_1_1_0_0_n_n.contr.Idx) :
    (dot_S1024x2048_S2048x2048_S1024x2048_1_1_0_0_n_n.rhsIdx i q 0).val = (i 1).val := by
  unfold DotDims.rhsIdx
  rw [dif_neg (show ¬(0 : Fin S2048x2048.rank) ∈ dot_S1024x2048_S2048x2048_S1024x2048_1_1_0_0_n_n.rhsBatch by decide), dif_pos (show (0 : Fin S2048x2048.rank) ∈ dot_S1024x2048_S2048x2048_S1024x2048_1_1_0_0_n_n.rhsNonContracting by decide)]
  rfl
/-- The right factor's second coordinate is the summation index. -/
theorem rhs_ctx_1 (i : S1024x2048.Idx) (q : dot_S1024x2048_S2048x2048_S1024x2048_1_1_0_0_n_n.contr.Idx) :
    (dot_S1024x2048_S2048x2048_S1024x2048_1_1_0_0_n_n.rhsIdx i q 1).val = (q ⟨0, by decide⟩).val :=
  dot_S1024x2048_S2048x2048_S1024x2048_1_1_0_0_n_n.rhsIdx_val_of_single rfl i q

/-- The product into the zero accumulator, read at entry (p, q): the plain sum over the contracted axis. -/
theorem ctx_matmul_apply (a : FVec Ideal S1024x2048 .bf16) (b : FVec Ideal S2048x2048 .bf16) (p : Fin 1024) (q : Fin 2048) :
    FloatOps.matmul (F := Ideal) dot_S1024x2048_S2048x2048_S1024x2048_1_1_0_0_n_n none a b (constant S1024x2048 .f32 0x00000000#32) (ix2 p q)
      = ∑ j : Fin 2048, a (ix2 p j) * b (ix2 q j) := by
  rw [Ideal.matmul_constant_zero_apply, ← Equiv.sum_comp (ValueIdx.contrEquiv1 dot_S1024x2048_S2048x2048_S1024x2048_1_1_0_0_n_n 2048 rfl rfl).symm]
  refine Finset.sum_congr rfl fun k _ => ?_
  have hk := ValueIdx.contrEquiv1_symm_val dot_S1024x2048_S2048x2048_S1024x2048_1_1_0_0_n_n 2048 rfl rfl k
  have el : dot_S1024x2048_S2048x2048_S1024x2048_1_1_0_0_n_n.lhsIdx (ix2 p q) ((ValueIdx.contrEquiv1 dot_S1024x2048_S2048x2048_S1024x2048_1_1_0_0_n_n 2048 rfl rfl).symm k) = ix2 p k := funext fun d => Fin.ext (by
    match d with
    | ⟨0, _⟩ => exact lhs_ctx_0 _ _
    | ⟨1, _⟩ => exact (lhs_ctx_1 _ _).trans hk)
  have er : dot_S1024x2048_S2048x2048_S1024x2048_1_1_0_0_n_n.rhsIdx (ix2 p q) ((ValueIdx.contrEquiv1 dot_S1024x2048_S2048x2048_S1024x2048_1_1_0_0_n_n 2048 rfl rfl).symm k) = ix2 q k := funext fun d => Fin.ext (by
    match d with
    | ⟨0, _⟩ => exact rhs_ctx_0 _ _
    | ⟨1, _⟩ => exact (rhs_ctx_1 _ _).trans hk)
  rw [el, er]

/-- The body's arithmetic at entry (p, q) of its block: the casts to the same shape and the change of float format
    are the identity on the extended reals, so it is the product's sum. -/
theorem pay_apply (x0 : Vec Ideal S1024x2048 .bf16) (x1 : Vec Ideal S2048x2048 .bf16) (p : Fin 1024) (q : Fin 2048) :
    k2_pay1 (F := Ideal) x0 x1 (ix2 p q) = ∑ j : Fin 2048, x0 (ix2 p j) * x1 (ix2 q j) := by
  unfold k2_pay1
  refine (truncf_apply (ψ := .bf16) _ bitsLt_bf16_f32 (ix2 p q)).trans ?_
  rw [shapeCast_self, shapeCast_self]
  exact ctx_matmul_apply x0 x1 p q

-- the TensorCore's buffer contents when the region is entered: a parameter
variable (V : (c : Dev nD) → (b : Ref sig .tc) → Buf (Elt Ideal) ((c : Thread nD τ).loc b))

/-! ## From the blocks to the array

Point t of the region's 8 holds rows 1024·t … 1024·t + 1023 of the value projection and the whole weight matrix, and
writes back the same rows of the result. -/

theorem hz : (![0, 0] : Fin 2 → Nat) = fun _ => 0 := funext fun a => by fin_cases a <;> rfl

/-- An entry of a block's product is the entry of the whole product at array index `i`, once the block's row p is
    the array's row `i 0` of the left factor and the weights' row q is row `i 1` of the right factor. -/
theorem block_entry (X : Spec.Mat 8192 2048) (W : Spec.Mat 2048 2048)
    (x0 : Vec Ideal S1024x2048 .bf16) (x1 : Vec Ideal S2048x2048 .bf16)
    (i : (⟨2, ![8192, 2048]⟩ : Shape).Idx) (p : Fin 1024) (q : Fin 2048)
    (h0 : ∀ j : Fin 2048, x0 (ix2 p j) = X (ix2 (i 0) j)) (h1 : ∀ j : Fin 2048, x1 (ix2 q j) = W (ix2 (i 1) j)) :
    k2_pay1 (F := Ideal) x0 x1 (ix2 p q) = Spec.mulT X W i := by
  rw [pay_apply]
  show _ = ∑ j : Fin 2048, X (ix2 (i 0) j) * W (ix2 (i 1) j)
  exact Finset.sum_congr rfl fun j _ => by rw [h0 j, h1 j]

/-- The printed index maps, decided over the grid: the value rows' block moves with the output's block down the
    rows, the weights' block stays at the origin, and nothing moves along the columns. -/
theorem idx_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every one of the 8 row blocks of the result is some point's. -/
theorem idx_onto : ∀ q0 : Fin 8, ∃ t : Fin cfg2.N, win2_2.index t = ![q0.val, 0] :=
  (by decide +kernel : ∀ q0 : Fin 8, ∃ t : Fin grid2.N, win2_2.index t = ![q0.val, 0])

/-- What point t writes back is block t of the whole product of the arrays the region finds. -/
theorem flushed_eq (c : Dev nD) (t : Fin cfg2.N) :
    (dat2 (F := Ideal) V c).flushed 2 t = ((cfg2.win 2).blk t).view.read (Elt Ideal) (Spec.mulT (r := 8192) (k := 2048) (n := 2048) (V c main_v4_2) (V c main_v17)) := by
  show (cfg2.win 2).cut (grid2.coords t) ((dat2 V c).after 2 t) = _
  rw [after2_2]
  unfold out2_2
  rw [View.canon_unit_zero hz]
  simp only [View.ld_unit_zero (S := S1024x2048) hz, View.ld_unit_zero (S := S2048x2048) hz]
  obtain ⟨e0, e1, e2, e3, e4, e5⟩ := idx_facts t
  funext j
  show k2_pay1 (F := Ideal) (iblk2 V c 0 t) (iblk2 V c 1 t) (j : S1024x2048.Idx) = Spec.mulT (r := 8192) (k := 2048) (n := 2048) (V c main_v4_2) (V c main_v17) (((cfg2.win 2).blk t).view.emb j)
  have hj : (j : S1024x2048.Idx) = ix2 (n0 := 1024) (n1 := 2048) (j 0) (j 1) := eq_ix2 (n0 := 1024) (n1 := 2048) j
  refine (congrArg (k2_pay1 (F := Ideal) (iblk2 V c 0 t) (iblk2 V c 1 t)) hj).trans ?_
  refine block_entry (V c main_v4_2) (V c main_v17) (iblk2 V c 0 t) (iblk2 V c 1 t) (((cfg2.win 2).blk t).view.emb j) (j 0) (j 1) (fun k => ?_) (fun k => ?_)
  · show V c main_v4_2 (((cfg2.win 0).blk t).view.emb (ix2 (n0 := 1024) (n1 := 2048) (j 0) k)) = _
    refine congrArg (V c main_v4_2) (funext fun a => Fin.ext ?_)
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 2048 + 1 * k.val = k.val; omega
  · show V c main_v17 (((cfg2.win 1).blk t).view.emb (ix2 (n0 := 2048) (n1 := 2048) (j 1) k)) = _
    refine congrArg (V c main_v17) (funext fun a => Fin.ext ?_)
    match a with
    | ⟨0, _⟩ => show win2_1.index t (0 : Fin 2) * 2048 + 1 * (j 1).val = win2_2.index t (1 : Fin 2) * 2048 + 1 * (j 1).val; omega
    | ⟨1, _⟩ => show win2_1.index t (1 : Fin 2) * 2048 + 1 * k.val = k.val; omega

/-- An index of the result array is in point t's block iff each coordinate is in the block's range on its axis. -/
theorem mem_blk (t : Fin cfg2.N) (i : S8192x2048.Idx) :
    i ∈ ((cfg2.win 2).blk t).view.set ↔ ∀ a : Fin 2, win2_2.index t a * S1024x2048.size a ≤ (i a).val ∧ (i a).val < win2_2.index t a * S1024x2048.size a + S1024x2048.size a := by
  show i ∈ ((View.whole main_v18).slice (win2_2.rect t)).set ↔ _
  rw [View.set_slice_whole, Rect.mem_set_unit]
  exact Iff.rfl

/-- Every index of the result array lies in the block of the point that owns its row: row r belongs to point r / 1024. -/
theorem cover (i : S8192x2048.Idx) : ∃ t : Fin cfg2.N, (cfg2.win 2).flush t = true ∧ i ∈ ((cfg2.win 2).blk t).view.set := by
  have hi0 : (i 0).val < 8192 := (i 0).isLt
  have hi1 : (i 1).val < 2048 := (i 1).isLt
  obtain ⟨t, ht⟩ := idx_onto ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 2048 ≤ (i 1).val ∧ (i 1).val < win2_2.index t (1 : Fin 2) * 2048 + 2048; omega

/-! ## The result array after the region's 8 points: the value projection times the transposed softmax weights -/
theorem arr2 (c : Dev nD) :
    (dat2 (F := Ideal) V c).arrAt 2 cfg2.N = Spec.mulT (r := 8192) (k := 2048) (n := 2048) (V c main_v4_2) (V c main_v17) := by
  exact (dat2 (F := Ideal) V c).arrAt_eq_of_cover 2 _ (fun t _ => flushed_eq V c t) (fun i => cover i)

end Cert.KernelIdeal.R2

end
-- ==== Proof.R3.lean ====
/-
  Region 3 (the first dense layer): point (i, j) multiplies 512 rows of the activations by 1024 rows of the weights, adds the bias block and rectifies.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R3

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at one entry -/

/-- The layer's contraction takes rows of the activations block against rows of the weights block, both on their
    second axis. The left factor keeps the entry's row … -/
theorem lhs_dotXW_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
/-- … and runs along the contracted axis; -/
theorem lhs_dotXW_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
/-- the right factor's row is the entry's column … -/
theorem rhs_dotXW_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
/-- … and it too runs along the contracted axis. -/
theorem rhs_dotXW_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The product of the two blocks into the zero accumulator, at entry (p, q): the plain sum over the 2048 contracted
    positions of activation (p, k) times weight (q, k). -/
theorem matmul_entry (a : FVec Ideal S512x2048 .bf16) (b : FVec Ideal S1024x2048 .bf16) (p : Fin 512) (q : Fin 1024) :
    matmul (F := Ideal) dot_S512x2048_S1024x2048_S512x1024_1_1_0_0_n_n none a b (constant S512x1024 .f32 0x00000000#32) (ix2 p q)
      = ∑ k : Fin 2048, a (ix2 p k) * b (ix2 q k) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun ax => Fin.ext (by
    match ax with
    | ⟨0, _⟩ => exact lhs_dotXW_0 _ _
    | ⟨1, _⟩ => exact (lhs_dotXW_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun ax => Fin.ext (by
    match ax with
    | ⟨0, _⟩ => exact rhs_dotXW_0 _ _
    | ⟨1, _⟩ => exact (rhs_dotXW_1 _ _).trans hk)
  rw [el, er]

/-- The bias block spread over the 512 rows: entry (p, q) is the bias at q. -/
theorem bias_entry (b : Vec Ideal S1024 .f32) (p : Fin 512) (q : Fin 1024) :
    broadcastTo S512x1024 (shapeCast S1x1024 b shapeCasts_S1024_S1x1024) broadcasts_S1x1024_S512x1024 (ix2 p q) = b (ix1 q) :=
  (broadcastTo_1b_ab_apply _ broadcasts_S1x1024_S512x1024 p q).trans (shapeCast_a_1a_apply b shapeCasts_S1024_S1x1024 0 q)

/-- The body's stored value at entry (p, q): the rectified sum of the row-by-row product and the bias. -/
theorem pay_entry (x0 : Vec Ideal S512x2048 .bf16) (x1 : Vec Ideal S1024x2048 .bf16) (x2 : Vec Ideal S1024 .f32) (p : Fin 512) (q : Fin 1024) :
    k3_pay1 (F := Ideal) x0 x1 x2 (ix2 p q) = max ((∑ k : Fin 2048, x0 (ix2 p k) * x1 (ix2 q k)) + x2 (ix1 q)) 0 := by
  unfold k3_pay1
  simp only [shapeCast_self]
  refine (truncf_apply (s := S512x1024) (φ := .f32) (ψ := .bf16) _ bitsLt_bf16_f32 (ix2 p q)).trans ?_
  refine (maximumf_apply (s := S512x1024) (φ := .f32) _ _ (ix2 p q)).trans ?_
  refine congrArg₂ max ?_ Ideal.ofBits_zero_f32
  refine (addf_apply (s := S512x1024) (φ := .f32) _ _ (ix2 p q)).trans ?_
  exact congrArg₂ (· + ·) (matmul_entry x0 x1 p q) (bias_entry x2 p q)

/-! ## From the blocks to the array -/

theorem zero_offsets2 : (![0, 0] : Fin 2 → Nat) = fun _ => 0 := funext fun a => by fin_cases a <;> rfl
theorem zero_offsets1 : (![0] : Fin 1 → Nat) = fun _ => 0 := funext fun a => by fin_cases a; rfl

/-- The windows' index maps over the 16 × 4 grid: the activations block follows the output block's row index, the
    weights and bias blocks follow its column index, and the second block index of both matrices is 0. -/
theorem block_indices : ∀ t : Fin cfg3.N, win3_0.index t (0 : Fin 2) = win3_3.index t (0 : Fin 2)
    ∧ win3_0.index t (1 : Fin 2) = 0
    ∧ win3_1.index t (0 : Fin 2) = win3_3.index t (1 : Fin 2)
    ∧ win3_1.index t (1 : Fin 2) = 0
    ∧ win3_2.index t (0 : Fin 1) = win3_3.index t (1 : Fin 2)
    ∧ win3_3.index t (0 : Fin 2) ≤ 15 ∧ win3_3.index t (1 : Fin 2) ≤ 3 :=
  (by decide +kernel : ∀ t : Fin grid3.N, _)

/-- Every (row block, column block) pair is some point's. -/
theorem block_onto : ∀ (q0 : Fin 16) (q1 : Fin 4), ∃ t : Fin cfg3.N, win3_3.index t = ![q0.val, q1.val] :=
  (by decide +kernel : ∀ (q0 : Fin 16) (q1 : Fin 4), ∃ t : Fin grid3.N, win3_3.index t = ![q0.val, q1.val])

-- the TensorCore's buffer contents when the region is entered: a parameter
variable (V : (c : Dev nD) → (b : Ref sig .tc) → Buf (Elt Ideal) ((c : Thread nD τ).loc b))

/-- The activations block at a point: its row p is row (row block × 512 + p) of the activations. -/
theorem act_blk (c : Dev nD) (t : Fin cfg3.N) (p : Fin 512) (k : Fin 2048) (P : Fin 8192)
    (hP : P.val = win3_3.index t (0 : Fin 2) * 512 + p.val) :
    (iblk3 V c 0 t : Vec Ideal S512x2048 .bf16) (ix2 p k) = (V c main_v18 : S8192x2048.Idx → Elt Ideal .bf16) (ix2 P k) := by
  obtain ⟨e0, e1, -⟩ := block_indices t
  unfold iblk3
  rw [View.read_apply]
  show V c main_v18 _ = V c main_v18 _
  congr 1
  funext a
  apply Fin.ext
  match a with
  | ⟨0, _⟩ => show win3_0.index t (0 : Fin 2) * 512 + 1 * p.val = P.val; rw [e0, hP]; omega
  | ⟨1, _⟩ => show win3_0.index t (1 : Fin 2) * 2048 + 1 * k.val = k.val; rw [e1]; omega

/-- The weights block at a point: its row q is row (column block × 1024 + q) of the weights. -/
theorem wgt_blk (c : Dev nD) (t : Fin cfg3.N) (q : Fin 1024) (k : Fin 2048) (Q : Fin 4096)
    (hQ : Q.val = win3_3.index t (1 : Fin 2) * 1024 + q.val) :
    (iblk3 V c 1 t : Vec Ideal S1024x2048 .bf16) (ix2 q k) = (V c main_v19 : S4096x2048.Idx → Elt Ideal .bf16) (ix2 Q k) := by
  obtain ⟨-, -, e2, e3, -⟩ := block_indices t
  unfold iblk3
  rw [View.read_apply]
  show V c main_v19 _ = V c main_v19 _
  congr 1
  funext a
  apply Fin.ext
  match a with
  | ⟨0, _⟩ => show win3_1.index t (0 : Fin 2) * 1024 + 1 * q.val = Q.val; rw [e2, hQ]; omega
  | ⟨1, _⟩ => show win3_1.index t (1 : Fin 2) * 2048 + 1 * k.val = k.val; rw [e3]; omega

/-- The bias block at a point: its entry q is entry (column block × 1024 + q) of the bias. -/
theorem bias_blk (c : Dev nD) (t : Fin cfg3.N) (q : Fin 1024) (Q : Fin 4096)
    (hQ : Q.val = win3_3.index t (1 : Fin 2) * 1024 + q.val) :
    (iblk3 V c 2 t : Vec Ideal S1024 .f32) (ix1 q) = (V c main_arg6 : S4096.Idx → Elt Ideal .f32) (ix1 Q) := by
  obtain ⟨-, -, -, -, e4, -⟩ := block_indices t
  unfold iblk3
  rw [View.read_apply]
  show V c main_arg6 _ = V c main_arg6 _
  congr 1
  funext a
  apply Fin.ext
  match a with
  | ⟨0, _⟩ => show win3_2.index t (0 : Fin 1) * 1024 + 1 * q.val = Q.val; rw [e4, hQ]; omega

/-- One entry of one point's result is the layer's entry, once each block entry it reads is the array entry the
    layer reads: the row of activations, the row of weights, the bias entry. -/
theorem point_value (x0 : Vec Ideal S512x2048 .bf16) (x1 : Vec Ideal S1024x2048 .bf16) (x2 : Vec Ideal S1024 .f32)
    (X : Spec.Mat 8192 2048) (W : Spec.Mat 4096 2048) (B : Spec.Row 4096) (j : S512x1024.Idx) (i : S8192x4096.Idx)
    (h0 : ∀ k : Fin 2048, x0 (ix2 (j 0) k) = X (ix2 (i 0) k))
    (h1 : ∀ k : Fin 2048, x1 (ix2 (j 1) k) = W (ix2 (i 1) k))
    (h2 : x2 (ix1 (j 1)) = B (ix1 (i 1))) :
    k3_pay1 (F := Ideal) x0 x1 x2 j = Spec.dense X W B i := by
  obtain ⟨p, q, rfl⟩ : ∃ (p : Fin 512) (q : Fin 1024), j = ix2 p q := ⟨j 0, j 1, eq_ix2 j⟩
  obtain ⟨P, Q, rfl⟩ : ∃ (P : Fin 8192) (Q : Fin 4096), i = ix2 P Q := ⟨i 0, i 1, eq_ix2 i⟩
  have h0' : ∀ k : Fin 2048, x0 (ix2 p k) = X (ix2 P k) := h0
  have h1' : ∀ k : Fin 2048, x1 (ix2 q k) = W (ix2 Q k) := h1
  have h2' : x2 (ix1 q) = B (ix1 Q) := h2
  rw [pay_entry, Spec.dense_apply, h2']
  exact congrArg (fun s => max (s + B (ix1 Q)) 0) (Finset.sum_congr rfl fun k _ => by rw [h0' k, h1' k])

/-- What a point writes back is its block of the layer's result on the arrays as the region finds them. -/
theorem flushed_eq (c : Dev nD) (t : Fin cfg3.N) :
    (dat3 (F := Ideal) V c).flushed 3 t = ((cfg3.win 3).blk t).view.read (Elt Ideal) (Spec.dense (r := 8192) (k := 2048) (n := 4096) (V c main_v18) (V c main_v19) (V c main_arg6)) := by
  show (cfg3.win 3).cut (grid3.coords t) ((dat3 V c).after 3 t) = _
  rw [after3_3]
  unfold out3_3
  rw [View.canon_unit_zero zero_offsets2]
  simp only [View.ld_unit_zero (S := S512x2048) zero_offsets2, View.ld_unit_zero (S := S1024x2048) zero_offsets2, View.ld_unit_zero (S := S1024) zero_offsets1]
  funext j
  refine point_value (iblk3 V c 0 t) (iblk3 V c 1 t) (iblk3 V c 2 t) (V c main_v18) (V c main_v19) (V c main_arg6) j (((cfg3.win 3).blk t).view.emb j) ?_ ?_ ?_
  · intro k
    refine act_blk V c t _ k _ ?_
    show win3_3.index t (0 : Fin 2) * 512 + 1 * (j 0).val = win3_3.index t (0 : Fin 2) * 512 + (j 0).val
    omega
  · intro k
    refine wgt_blk V c t _ k _ ?_
    show win3_3.index t (1 : Fin 2) * 1024 + 1 * (j 1).val = win3_3.index t (1 : Fin 2) * 1024 + (j 1).val
    omega
  · refine bias_blk V c t _ _ ?_
    show win3_3.index t (1 : Fin 2) * 1024 + 1 * (j 1).val = win3_3.index t (1 : Fin 2) * 1024 + (j 1).val
    omega

/-- An entry of the result array is in a point's block iff each coordinate is in the block's range on its axis. -/
theorem mem_blk (t : Fin cfg3.N) (i : S8192x4096.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v20).slice (win3_3.rect t)).set ↔ _
  rw [View.set_slice_whole, Rect.mem_set_unit]
  exact Iff.rfl

/-- The 16 × 4 blocks tile the result: entry (r, n) is in the block of the point with row block r / 512 and column
    block n / 1024, and every point writes back. -/
theorem cover (i : S8192x4096.Idx) :
    ∃ t : Fin cfg3.N, (cfg3.win 3).flush t = true ∧ i ∈ ((cfg3.win 3).blk t).view.set := by
  have hi0 : (i 0).val < 8192 := (i 0).isLt
  have hi1 : (i 1).val < 4096 := (i 1).isLt
  obtain ⟨t, ht⟩ := block_onto ⟨(i 0).val / 512, by omega⟩ ⟨(i 1).val / 1024, by omega⟩
  have q0 : win3_3.index t (0 : Fin 2) = (i 0).val / 512 := congrFun ht 0
  have q1 : win3_3.index t (1 : Fin 2) = (i 1).val / 1024 := congrFun ht 1
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

theorem arr3 (c : Dev nD) :
    (dat3 (F := Ideal) V c).arrAt 3 cfg3.N = Spec.dense (r := 8192) (k := 2048) (n := 4096) (V c main_v18) (V c main_v19) (V c main_arg6) := by
  exact (dat3 (F := Ideal) V c).arrAt_eq_of_cover 3 _ (fun t _ => flushed_eq V c t) cover

end Cert.KernelIdeal.R3

end
-- ==== Proof.R4.lean ====
/-
  Region 4 (the second dense layer): point (i, j) multiplies 512 rows of the activations by 1024 rows of the weights, adds the bias block and rectifies.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R4

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The block product at an entry -/

/-- The left factor's row is the output's row. -/
theorem lhs_axis_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left factor's column is the summation index. -/
theorem lhs_axis_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
/-- The right factor's row is the output's column. -/
theorem rhs_axis_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right factor's column is the summation index. -/
theorem rhs_axis_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product of a 512-row block with a 1024-row block, both contracted on their 4096 columns, into the zero
    accumulator: entry (p, q) is the plain sum over k of x[p, k] · w[q, k]. -/
theorem product_apply (x : FVec Ideal S512x4096 .bf16) (w : FVec Ideal S1024x4096 .bf16) (p : Fin 512) (q : Fin 1024) :
    matmul (F := Ideal) dot_S512x4096_S1024x4096_S512x1024_1_1_0_0_n_n none x w (constant (F := Ideal) S512x1024 .f32 0x00000000#32) (ix2 p q)
      = ∑ k : Fin 4096, x (ix2 p k) * w (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_axis_0 _ _
    | ⟨1, _⟩ => exact (lhs_axis_1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_axis_0 _ _
    | ⟨1, _⟩ => exact (rhs_axis_1 _ _).trans hk)
  rw [el, er]

/-- The body's arithmetic at entry (p, q) of the output block: the row of the activations' block against the row of
    the weights' block, plus the bias entry q, rectified. The format changes and the same-shape casts are the
    identity on the extended reals; the bias is read through its added unit axis and its spreading over the rows. -/
theorem payload_apply (x0 : Vec Ideal S512x4096 .bf16) (x1 : Vec Ideal S1024x4096 .bf16) (x2 : Vec Ideal S1024 .f32)
    (p : Fin 512) (q : Fin 1024) :
    k4_pay1 (F := Ideal) x0 x1 x2 (ix2 p q) = max ((∑ k : Fin 4096, x0 (ix2 p k) * x1 (ix2 q k)) + x2 (ix1 q)) 0 := by
  unfold k4_pay1
  simp only [shapeCast_self]
  have h1 := product_apply x0 x1 p q
  have h2 : broadcastTo S512x1024 (shapeCast S1x1024 x2 shapeCasts_S1024_S1x1024) broadcasts_S1x1024_S512x1024 (ix2 p q) = x2 (ix1 q) :=
    (broadcastTo_1b_ab_apply (a := 512) (b := 1024) _ broadcasts_S1x1024_S512x1024 p q).trans
      (shapeCast_a_1a_apply (a := 1024) x2 shapeCasts_S1024_S1x1024 0 q)
  show max (_ + _) (Ideal.ofBits .f32 0x00000000#32) = _
  rw [h1, h2, Ideal.ofBits_zero_f32]

/-! ## The grid's index maps -/

theorem zeros_two : (![0, 0] : Fin 2 → Nat) = fun _ => 0 := funext fun a => by fin_cases a <;> rfl
theorem zeros_one : (![0] : Fin 1 → Nat) = fun _ => 0 := funext fun a => by fin_cases a; rfl

/-- At point (i, j) the activations' block is block row i (all columns), the weights' block is block row j (all
    columns), the bias block is block j, and the output block is block (i, j), with i below 16 and j below 4:
    decided once over the 64 points. -/
theorem idx_facts : ∀ t : Fin cfg4.N, win4_0.index t (0 : Fin 2) = win4_3.index t (0 : Fin 2)
    ∧ win4_0.index t (1 : Fin 2) = 0
    ∧ win4_1.index t (0 : Fin 2) = win4_3.index t (1 : Fin 2)
    ∧ win4_1.index t (1 : Fin 2) = 0
    ∧ win4_2.index t (0 : Fin 1) = win4_3.index t (1 : Fin 2)
    ∧ win4_3.index t (0 : Fin 2) ≤ 15
    ∧ win4_3.index t (1 : Fin 2) ≤ 3 :=
  (by decide +kernel : ∀ t : Fin grid4.N, _)

/-- Every output block (a, b) is some point's. -/
theorem idx_onto : ∀ (a : Fin 16) (b : Fin 4), ∃ t : Fin cfg4.N, win4_3.index t = ![a.val, b.val] :=
  (by decide +kernel : ∀ (a : Fin 16) (b : Fin 4), ∃ t : Fin grid4.N, win4_3.index t = ![a.val, b.val])

/-! ## The output blocks fill the array -/

/-- An index of the output array is in point t's block iff each coordinate is in the block's range on its axis. -/
theorem mem_blk (t : Fin cfg4.N) (i : S8192x4096.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v22).slice (win4_3.rect t)).set ↔ _
  rw [View.set_slice_whole, Rect.mem_set_unit]
  exact Iff.rfl

/-- Entry (r, n) of the output lies in the block of the point with i = r / 512 and j = n / 1024, and every point
    writes its block back. -/
theorem cover (i : S8192x4096.Idx) :
    ∃ t : Fin cfg4.N, (cfg4.win 3).flush t = true ∧ i ∈ ((cfg4.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win4_3.index t (0 : Fin 2) = (i 0).val / 512 := congrFun ht 0
  have q1 : win4_3.index t (1 : Fin 2) = (i 1).val / 1024 := congrFun ht 1
  refine ⟨t, flush4_3 t, ?_⟩
  rw [mem_blk]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

-- the TensorCore's buffer contents when the region is entered: a parameter
variable (V : (c : Dev nD) → (b : Ref sig .tc) → Buf (Elt Ideal) ((c : Thread nD τ).loc b))

/-! ## The blocks a point reads, named at their literal types -/

/-- The 512 rows of the activations that point t reads. -/
abbrev xblk (c : Dev nD) (t : Fin cfg4.N) : Vec Ideal S512x4096 .bf16 := iblk4 V c 0 t
/-- The 1024 rows of the weights that point t reads. -/
abbrev wblk (c : Dev nD) (t : Fin cfg4.N) : Vec Ideal S1024x4096 .bf16 := iblk4 V c 1 t
/-- The 1024 bias entries that point t reads. -/
abbrev bblk (c : Dev nD) (t : Fin cfg4.N) : Vec Ideal S1024 .f32 := iblk4 V c 2 t

/-- Row p of the activations' block at point (i, j) is row i · 512 + p of the activations. -/
theorem xblk_apply (c : Dev nD) (t : Fin cfg4.N) (p : Fin 512) (k : Fin 4096) (P : Fin 8192)
    (hP : P.val = win4_3.index t (0 : Fin 2) * 512 + p.val) :
    xblk V c t (ix2 p k) = V c main_v20 (ix2 P k) := by
  obtain ⟨e0, e1, e2, e3, e4, e5, e6⟩ := idx_facts t
  show V c main_v20 (((cfg4.win 0).blk t).view.emb (ix2 p k)) = V c main_v20 (ix2 P k)
  refine congrArg _ (funext fun a => Fin.ext ?_)
  match a with
  | ⟨0, _⟩ => show win4_0.index t (0 : Fin 2) * 512 + 1 * p.val = P.val; omega
  | ⟨1, _⟩ => show win4_0.index t (1 : Fin 2) * 4096 + 1 * k.val = k.val; omega

/-- Row q of the weights' block at point (i, j) is row j · 1024 + q of the weights. -/
theorem wblk_apply (c : Dev nD) (t : Fin cfg4.N) (q : Fin 1024) (k : Fin 4096) (Q : Fin 4096)
    (hQ : Q.val = win4_3.index t (1 : Fin 2) * 1024 + q.val) :
    wblk V c t (ix2 q k) = V c main_v21 (ix2 Q k) := by
  obtain ⟨e0, e1, e2, e3, e4, e5, e6⟩ := idx_facts t
  show V c main_v21 (((cfg4.win 1).blk t).view.emb (ix2 q k)) = V c main_v21 (ix2 Q k)
  refine congrArg _ (funext fun a => Fin.ext ?_)
  match a with
  | ⟨0, _⟩ => show win4_1.index t (0 : Fin 2) * 1024 + 1 * q.val = Q.val; omega
  | ⟨1, _⟩ => show win4_1.index t (1 : Fin 2) * 4096 + 1 * k.val = k.val; omega

/-- Entry q of the bias block at point (i, j) is entry j · 1024 + q of the bias. -/
theorem bblk_apply (c : Dev nD) (t : Fin cfg4.N) (q : Fin 1024) (Q : Fin 4096)
    (hQ : Q.val = win4_3.index t (1 : Fin 2) * 1024 + q.val) :
    bblk V c t (ix1 q) = V c main_arg8 (ix1 Q) := by
  obtain ⟨e0, e1, e2, e3, e4, e5, e6⟩ := idx_facts t
  show V c main_arg8 (((cfg4.win 2).blk t).view.emb (ix1 q)) = V c main_arg8 (ix1 Q)
  refine congrArg _ (funext fun a => Fin.ext ?_)
  match a with
  | ⟨0, _⟩ => show win4_2.index t (0 : Fin 1) * 1024 + 1 * q.val = Q.val; omega

/-! ## What a point writes back -/

/-- Point (i, j) writes back block (i, j) of the dense layer of the whole arrays: entry (p, q) of its block is the
    layer's entry (i · 512 + p, j · 1024 + q), which depends on row i · 512 + p of the activations, row j · 1024 + q
    of the weights and entry j · 1024 + q of the bias — exactly the rows and entries the point's blocks hold. -/
theorem flushed_eq (c : Dev nD) (t : Fin cfg4.N) :
    (dat4 (F := Ideal) V c).flushed 3 t = ((cfg4.win 3).blk t).view.read (Elt Ideal) (Spec.dense (r := 8192) (k := 4096) (n := 4096) (V c main_v20) (V c main_v21) (V c main_arg8)) := by
  show (cfg4.win 3).cut (grid4.coords t) ((dat4 V c).after 3 t) = _
  rw [after4_3]
  unfold out4_3
  rw [View.canon_unit_zero zeros_two]
  simp only [View.ld_unit_zero (S := S512x4096) zeros_two, View.ld_unit_zero (S := S1024x4096) zeros_two, View.ld_unit_zero (S := S1024) zeros_one]
  funext j
  obtain ⟨p, q, rfl⟩ : ∃ (p : Fin 512) (q : Fin 1024), j = ix2 p q := ⟨j 0, j 1, eq_ix2 j⟩
  obtain ⟨e0, e1, e2, e3, e4, e5, e6⟩ := idx_facts t
  have hp : p.val < 512 := p.isLt
  have hq : q.val < 1024 := q.isLt
  obtain ⟨P, hP⟩ : ∃ P : Fin 8192, P.val = win4_3.index t (0 : Fin 2) * 512 + p.val := ⟨⟨_, by omega⟩, rfl⟩
  obtain ⟨Q, hQ⟩ : ∃ Q : Fin 4096, Q.val = win4_3.index t (1 : Fin 2) * 1024 + q.val := ⟨⟨_, by omega⟩, rfl⟩
  have hE : ((cfg4.win 3).blk t).view.emb (ix2 p q) = ix2 P Q := by
    funext a; apply Fin.ext
    match a with
    | ⟨0, _⟩ => show win4_3.index t (0 : Fin 2) * 512 + 1 * p.val = P.val; omega
    | ⟨1, _⟩ => show win4_3.index t (1 : Fin 2) * 1024 + 1 * q.val = Q.val; omega
  show k4_pay1 (F := Ideal) (xblk V c t) (wblk V c t) (bblk V c t) (ix2 p q)
    = Spec.dense (r := 8192) (k := 4096) (n := 4096) (V c main_v20) (V c main_v21) (V c main_arg8) (((cfg4.win 3).blk t).view.emb (ix2 p q))
  refine (payload_apply (xblk V c t) (wblk V c t) (bblk V c t) p q).trans ?_
  rw [hE, Spec.dense_apply, bblk_apply V c t q Q hQ]
  refine congrArg (fun s => max (s + V c main_arg8 (ix1 Q)) 0) (Finset.sum_congr rfl fun k _ => ?_)
  rw [xblk_apply V c t p k P hP, wblk_apply V c t q k Q hQ]

theorem arr3 (c : Dev nD) :
    (dat4 (F := Ideal) V c).arrAt 3 cfg4.N = Spec.dense (r := 8192) (k := 4096) (n := 4096) (V c main_v20) (V c main_v21) (V c main_arg8) := by
  exact (dat4 (F := Ideal) V c).arrAt_eq_of_cover 3 _ (fun t _ => flushed_eq V c t) cover

end Cert.KernelIdeal.R4

end
-- ==== Proof.R5.lean ====
/-
  Region 5 (the third dense layer): point (i, j) multiplies 512 rows of the activations by 1024 rows of the weights, adds the bias block and rectifies.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R5

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The block product at an entry -/

/-- The left factor's row is the output's row. -/
theorem lhs_axis_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left factor's column is the summation index. -/
theorem lhs_axis_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
/-- The right factor's row is the output's column. -/
theorem rhs_axis_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right factor's column is the summation index. -/
theorem rhs_axis_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product of a 512-row block with a 1024-row block, both contracted on their 4096 columns, into the zero
    accumulator: entry (p, q) is the plain sum over k of x[p, k] · w[q, k]. -/
theorem product_apply (x : FVec Ideal S512x4096 .bf16) (w : FVec Ideal S1024x4096 .bf16) (p : Fin 512) (q : Fin 1024) :
    matmul (F := Ideal) dot_S512x4096_S1024x4096_S512x1024_1_1_0_0_n_n none x w (constant (F := Ideal) S512x1024 .f32 0x00000000#32) (ix2 p q)
      = ∑ k : Fin 4096, x (ix2 p k) * w (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_axis_0 _ _
    | ⟨1, _⟩ => exact (lhs_axis_1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_axis_0 _ _
    | ⟨1, _⟩ => exact (rhs_axis_1 _ _).trans hk)
  rw [el, er]

/-- The body's arithmetic at entry (p, q) of the output block: the row of the activations' block against the row of
    the weights' block, plus the bias entry q, rectified. The format changes and the same-shape casts are the
    identity on the extended reals; the bias is read through its added unit axis and its spreading over the rows. -/
theorem payload_apply (x0 : Vec Ideal S512x4096 .bf16) (x1 : Vec Ideal S1024x4096 .bf16) (x2 : Vec Ideal S1024 .f32)
    (p : Fin 512) (q : Fin 1024) :
    k5_pay1 (F := Ideal) x0 x1 x2 (ix2 p q) = max ((∑ k : Fin 4096, x0 (ix2 p k) * x1 (ix2 q k)) + x2 (ix1 q)) 0 := by
  unfold k5_pay1
  simp only [shapeCast_self]
  have h1 := product_apply x0 x1 p q
  have h2 : broadcastTo S512x1024 (shapeCast S1x1024 x2 shapeCasts_S1024_S1x1024) broadcasts_S1x1024_S512x1024 (ix2 p q) = x2 (ix1 q) :=
    (broadcastTo_1b_ab_apply (a := 512) (b := 1024) _ broadcasts_S1x1024_S512x1024 p q).trans
      (shapeCast_a_1a_apply (a := 1024) x2 shapeCasts_S1024_S1x1024 0 q)
  show max (_ + _) (Ideal.ofBits .f32 0x00000000#32) = _
  rw [h1, h2, Ideal.ofBits_zero_f32]

/-! ## The grid's index maps -/

theorem zeros_two : (![0, 0] : Fin 2 → Nat) = fun _ => 0 := funext fun a => by fin_cases a <;> rfl
theorem zeros_one : (![0] : Fin 1 → Nat) = fun _ => 0 := funext fun a => by fin_cases a; rfl

/-- At point (i, j) the activations' block is block row i (all columns), the weights' block is block row j (all
    columns), the bias block is block j, and the output block is block (i, j), with i below 16 and j below 4:
    decided once over the 64 points. -/
theorem idx_facts : ∀ t : Fin cfg5.N, win5_0.index t (0 : Fin 2) = win5_3.index t (0 : Fin 2)
    ∧ win5_0.index t (1 : Fin 2) = 0
    ∧ win5_1.index t (0 : Fin 2) = win5_3.index t (1 : Fin 2)
    ∧ win5_1.index t (1 : Fin 2) = 0
    ∧ win5_2.index t (0 : Fin 1) = win5_3.index t (1 : Fin 2)
    ∧ win5_3.index t (0 : Fin 2) ≤ 15
    ∧ win5_3.index t (1 : Fin 2) ≤ 3 :=
  (by decide +kernel : ∀ t : Fin grid5.N, _)

/-- Every output block (a, b) is some point's. -/
theorem idx_onto : ∀ (a : Fin 16) (b : Fin 4), ∃ t : Fin cfg5.N, win5_3.index t = ![a.val, b.val] :=
  (by decide +kernel : ∀ (a : Fin 16) (b : Fin 4), ∃ t : Fin grid5.N, win5_3.index t = ![a.val, b.val])

/-! ## The output blocks fill the array -/

/-- An index of the output array is in point t's block iff each coordinate is in the block's range on its axis. -/
theorem mem_blk (t : Fin cfg5.N) (i : S8192x4096.Idx) :
    i ∈ ((cfg5.win 3).blk t).view.set ↔ ∀ a : Fin 2, win5_3.index t a * S512x1024.size a ≤ (i a).val ∧ (i a).val < win5_3.index t a * S512x1024.size a + S512x1024.size a := by
  show i ∈ ((View.whole main_v24).slice (win5_3.rect t)).set ↔ _
  rw [View.set_slice_whole, Rect.mem_set_unit]
  exact Iff.rfl

/-- Entry (r, n) of the output lies in the block of the point with i = r / 512 and j = n / 1024, and every point
    writes its block back. -/
theorem cover (i : S8192x4096.Idx) :
    ∃ t : Fin cfg5.N, (cfg5.win 3).flush t = true ∧ i ∈ ((cfg5.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win5_3.index t (0 : Fin 2) = (i 0).val / 512 := congrFun ht 0
  have q1 : win5_3.index t (1 : Fin 2) = (i 1).val / 1024 := congrFun ht 1
  refine ⟨t, flush5_3 t, ?_⟩
  rw [mem_blk]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 1024 ≤ (i 1).val ∧ (i 1).val < win5_3.index t (1 : Fin 2) * 1024 + 1024; omega

-- the TensorCore's buffer contents when the region is entered: a parameter
variable (V : (c : Dev nD) → (b : Ref sig .tc) → Buf (Elt Ideal) ((c : Thread nD τ).loc b))

/-! ## The blocks a point reads, named at their literal types -/

/-- The 512 rows of the activations that point t reads. -/
abbrev xblk (c : Dev nD) (t : Fin cfg5.N) : Vec Ideal S512x4096 .bf16 := iblk5 V c 0 t
/-- The 1024 rows of the weights that point t reads. -/
abbrev wblk (c : Dev nD) (t : Fin cfg5.N) : Vec Ideal S1024x4096 .bf16 := iblk5 V c 1 t
/-- The 1024 bias entries that point t reads. -/
abbrev bblk (c : Dev nD) (t : Fin cfg5.N) : Vec Ideal S1024 .f32 := iblk5 V c 2 t

/-- Row p of the activations' block at point (i, j) is row i · 512 + p of the activations. -/
theorem xblk_apply (c : Dev nD) (t : Fin cfg5.N) (p : Fin 512) (k : Fin 4096) (P : Fin 8192)
    (hP : P.val = win5_3.index t (0 : Fin 2) * 512 + p.val) :
    xblk V c t (ix2 p k) = V c main_v22 (ix2 P k) := by
  obtain ⟨e0, e1, e2, e3, e4, e5, e6⟩ := idx_facts t
  show V c main_v22 (((cfg5.win 0).blk t).view.emb (ix2 p k)) = V c main_v22 (ix2 P k)
  refine congrArg _ (funext fun a => Fin.ext ?_)
  match a with
  | ⟨0, _⟩ => show win5_0.index t (0 : Fin 2) * 512 + 1 * p.val = P.val; omega
  | ⟨1, _⟩ => show win5_0.index t (1 : Fin 2) * 4096 + 1 * k.val = k.val; omega

/-- Row q of the weights' block at point (i, j) is row j · 1024 + q of the weights. -/
theorem wblk_apply (c : Dev nD) (t : Fin cfg5.N) (q : Fin 1024) (k : Fin 4096) (Q : Fin 4096)
    (hQ : Q.val = win5_3.index t (1 : Fin 2) * 1024 + q.val) :
    wblk V c t (ix2 q k) = V c main_v23 (ix2 Q k) := by
  obtain ⟨e0, e1, e2, e3, e4, e5, e6⟩ := idx_facts t
  show V c main_v23 (((cfg5.win 1).blk t).view.emb (ix2 q k)) = V c main_v23 (ix2 Q k)
  refine congrArg _ (funext fun a => Fin.ext ?_)
  match a with
  | ⟨0, _⟩ => show win5_1.index t (0 : Fin 2) * 1024 + 1 * q.val = Q.val; omega
  | ⟨1, _⟩ => show win5_1.index t (1 : Fin 2) * 4096 + 1 * k.val = k.val; omega

/-- Entry q of the bias block at point (i, j) is entry j · 1024 + q of the bias. -/
theorem bblk_apply (c : Dev nD) (t : Fin cfg5.N) (q : Fin 1024) (Q : Fin 4096)
    (hQ : Q.val = win5_3.index t (1 : Fin 2) * 1024 + q.val) :
    bblk V c t (ix1 q) = V c main_arg10 (ix1 Q) := by
  obtain ⟨e0, e1, e2, e3, e4, e5, e6⟩ := idx_facts t
  show V c main_arg10 (((cfg5.win 2).blk t).view.emb (ix1 q)) = V c main_arg10 (ix1 Q)
  refine congrArg _ (funext fun a => Fin.ext ?_)
  match a with
  | ⟨0, _⟩ => show win5_2.index t (0 : Fin 1) * 1024 + 1 * q.val = Q.val; omega

/-! ## What a point writes back -/

/-- Point (i, j) writes back block (i, j) of the dense layer of the whole arrays: entry (p, q) of its block is the
    layer's entry (i · 512 + p, j · 1024 + q), which depends on row i · 512 + p of the activations, row j · 1024 + q
    of the weights and entry j · 1024 + q of the bias — exactly the rows and entries the point's blocks hold. -/
theorem flushed_eq (c : Dev nD) (t : Fin cfg5.N) :
    (dat5 (F := Ideal) V c).flushed 3 t = ((cfg5.win 3).blk t).view.read (Elt Ideal) (Spec.dense (r := 8192) (k := 4096) (n := 4096) (V c main_v22) (V c main_v23) (V c main_arg10)) := by
  show (cfg5.win 3).cut (grid5.coords t) ((dat5 V c).after 3 t) = _
  rw [after5_3]
  unfold out5_3
  rw [View.canon_unit_zero zeros_two]
  simp only [View.ld_unit_zero (S := S512x4096) zeros_two, View.ld_unit_zero (S := S1024x4096) zeros_two, View.ld_unit_zero (S := S1024) zeros_one]
  funext j
  obtain ⟨p, q, rfl⟩ : ∃ (p : Fin 512) (q : Fin 1024), j = ix2 p q := ⟨j 0, j 1, eq_ix2 j⟩
  obtain ⟨e0, e1, e2, e3, e4, e5, e6⟩ := idx_facts t
  have hp : p.val < 512 := p.isLt
  have hq : q.val < 1024 := q.isLt
  obtain ⟨P, hP⟩ : ∃ P : Fin 8192, P.val = win5_3.index t (0 : Fin 2) * 512 + p.val := ⟨⟨_, by omega⟩, rfl⟩
  obtain ⟨Q, hQ⟩ : ∃ Q : Fin 4096, Q.val = win5_3.index t (1 : Fin 2) * 1024 + q.val := ⟨⟨_, by omega⟩, rfl⟩
  have hE : ((cfg5.win 3).blk t).view.emb (ix2 p q) = ix2 P Q := by
    funext a; apply Fin.ext
    match a with
    | ⟨0, _⟩ => show win5_3.index t (0 : Fin 2) * 512 + 1 * p.val = P.val; omega
    | ⟨1, _⟩ => show win5_3.index t (1 : Fin 2) * 1024 + 1 * q.val = Q.val; omega
  show k5_pay1 (F := Ideal) (xblk V c t) (wblk V c t) (bblk V c t) (ix2 p q)
    = Spec.dense (r := 8192) (k := 4096) (n := 4096) (V c main_v22) (V c main_v23) (V c main_arg10) (((cfg5.win 3).blk t).view.emb (ix2 p q))
  refine (payload_apply (xblk V c t) (wblk V c t) (bblk V c t) p q).trans ?_
  rw [hE, Spec.dense_apply, bblk_apply V c t q Q hQ]
  refine congrArg (fun s => max (s + V c main_arg10 (ix1 Q)) 0) (Finset.sum_congr rfl fun k _ => ?_)
  rw [xblk_apply V c t p k P hP, wblk_apply V c t q k Q hQ]

theorem arr3 (c : Dev nD) :
    (dat5 (F := Ideal) V c).arrAt 3 cfg5.N = Spec.dense (r := 8192) (k := 4096) (n := 4096) (V c main_v22) (V c main_v23) (V c main_arg10) := by
  exact (dat5 (F := Ideal) V c).arrAt_eq_of_cover 3 _ (fun t _ => flushed_eq V c t) cover

end Cert.KernelIdeal.R5

end
-- ==== Proof.R6.lean ====
/-
  Region 6 (the fourth dense layer): point (i, j) multiplies 512 rows of the activations by 1024 rows of the weights, adds the bias block and rectifies.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R6

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The block product at an entry -/

/-- The left factor's row is the output's row. -/
theorem lhs_axis_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left factor's column is the summation index. -/
theorem lhs_axis_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
/-- The right factor's row is the output's column. -/
theorem rhs_axis_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right factor's column is the summation index. -/
theorem rhs_axis_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product of a 512-row block with a 1024-row block, both contracted on their 4096 columns, into the zero
    accumulator: entry (p, q) is the plain sum over k of x[p, k] · w[q, k]. -/
theorem product_apply (x : FVec Ideal S512x4096 .bf16) (w : FVec Ideal S1024x4096 .bf16) (p : Fin 512) (q : Fin 1024) :
    matmul (F := Ideal) dot_S512x4096_S1024x4096_S512x1024_1_1_0_0_n_n none x w (constant (F := Ideal) S512x1024 .f32 0x00000000#32) (ix2 p q)
      = ∑ k : Fin 4096, x (ix2 p k) * w (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_axis_0 _ _
    | ⟨1, _⟩ => exact (lhs_axis_1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_axis_0 _ _
    | ⟨1, _⟩ => exact (rhs_axis_1 _ _).trans hk)
  rw [el, er]

/-- The body's arithmetic at entry (p, q) of the output block: the row of the activations' block against the row of
    the weights' block, plus the bias entry q, rectified. The format changes and the same-shape casts are the
    identity on the extended reals; the bias is read through its added unit axis and its spreading over the rows. -/
theorem payload_apply (x0 : Vec Ideal S512x4096 .bf16) (x1 : Vec Ideal S1024x4096 .bf16) (x2 : Vec Ideal S1024 .f32)
    (p : Fin 512) (q : Fin 1024) :
    k6_pay1 (F := Ideal) x0 x1 x2 (ix2 p q) = max ((∑ k : Fin 4096, x0 (ix2 p k) * x1 (ix2 q k)) + x2 (ix1 q)) 0 := by
  unfold k6_pay1
  simp only [shapeCast_self]
  have h1 := product_apply x0 x1 p q
  have h2 : broadcastTo S512x1024 (shapeCast S1x1024 x2 shapeCasts_S1024_S1x1024) broadcasts_S1x1024_S512x1024 (ix2 p q) = x2 (ix1 q) :=
    (broadcastTo_1b_ab_apply (a := 512) (b := 1024) _ broadcasts_S1x1024_S512x1024 p q).trans
      (shapeCast_a_1a_apply (a := 1024) x2 shapeCasts_S1024_S1x1024 0 q)
  show max (_ + _) (Ideal.ofBits .f32 0x00000000#32) = _
  rw [h1, h2, Ideal.ofBits_zero_f32]

/-! ## The grid's index maps -/

theorem zeros_two : (![0, 0] : Fin 2 → Nat) = fun _ => 0 := funext fun a => by fin_cases a <;> rfl
theorem zeros_one : (![0] : Fin 1 → Nat) = fun _ => 0 := funext fun a => by fin_cases a; rfl

/-- At point (i, j) the activations' block is block row i (all columns), the weights' block is block row j (all
    columns), the bias block is block j, and the output block is block (i, j), with i below 16 and j below 4:
    decided once over the 64 points. -/
theorem idx_facts : ∀ t : Fin cfg6.N, win6_0.index t (0 : Fin 2) = win6_3.index t (0 : Fin 2)
    ∧ win6_0.index t (1 : Fin 2) = 0
    ∧ win6_1.index t (0 : Fin 2) = win6_3.index t (1 : Fin 2)
    ∧ win6_1.index t (1 : Fin 2) = 0
    ∧ win6_2.index t (0 : Fin 1) = win6_3.index t (1 : Fin 2)
    ∧ win6_3.index t (0 : Fin 2) ≤ 15
    ∧ win6_3.index t (1 : Fin 2) ≤ 3 :=
  (by decide +kernel : ∀ t : Fin grid6.N, _)

/-- Every output block (a, b) is some point's. -/
theorem idx_onto : ∀ (a : Fin 16) (b : Fin 4), ∃ t : Fin cfg6.N, win6_3.index t = ![a.val, b.val] :=
  (by decide +kernel : ∀ (a : Fin 16) (b : Fin 4), ∃ t : Fin grid6.N, win6_3.index t = ![a.val, b.val])

/-! ## The output blocks fill the array -/

/-- An index of the output array is in point t's block iff each coordinate is in the block's range on its axis. -/
theorem mem_blk (t : Fin cfg6.N) (i : S8192x4096.Idx) :
    i ∈ ((cfg6.win 3).blk t).view.set ↔ ∀ a : Fin 2, win6_3.index t a * S512x1024.size a ≤ (i a).val ∧ (i a).val < win6_3.index t a * S512x1024.size a + S512x1024.size a := by
  show i ∈ ((View.whole main_v26).slice (win6_3.rect t)).set ↔ _
  rw [View.set_slice_whole, Rect.mem_set_unit]
  exact Iff.rfl

/-- Entry (r, n) of the output lies in the block of the point with i = r / 512 and j = n / 1024, and every point
    writes its block back. -/
theorem cover (i : S8192x4096.Idx) :
    ∃ t : Fin cfg6.N, (cfg6.win 3).flush t = true ∧ i ∈ ((cfg6.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win6_3.index t (0 : Fin 2) = (i 0).val / 512 := congrFun ht 0
  have q1 : win6_3.index t (1 : Fin 2) = (i 1).val / 1024 := congrFun ht 1
  refine ⟨t, flush6_3 t, ?_⟩
  rw [mem_blk]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 1024 ≤ (i 1).val ∧ (i 1).val < win6_3.index t (1 : Fin 2) * 1024 + 1024; omega

-- the TensorCore's buffer contents when the region is entered: a parameter
variable (V : (c : Dev nD) → (b : Ref sig .tc) → Buf (Elt Ideal) ((c : Thread nD τ).loc b))

/-! ## The blocks a point reads, named at their literal types -/

/-- The 512 rows of the activations that point t reads. -/
abbrev xblk (c : Dev nD) (t : Fin cfg6.N) : Vec Ideal S512x4096 .bf16 := iblk6 V c 0 t
/-- The 1024 rows of the weights that point t reads. -/
abbrev wblk (c : Dev nD) (t : Fin cfg6.N) : Vec Ideal S1024x4096 .bf16 := iblk6 V c 1 t
/-- The 1024 bias entries that point t reads. -/
abbrev bblk (c : Dev nD) (t : Fin cfg6.N) : Vec Ideal S1024 .f32 := iblk6 V c 2 t

/-- Row p of the activations' block at point (i, j) is row i · 512 + p of the activations. -/
theorem xblk_apply (c : Dev nD) (t : Fin cfg6.N) (p : Fin 512) (k : Fin 4096) (P : Fin 8192)
    (hP : P.val = win6_3.index t (0 : Fin 2) * 512 + p.val) :
    xblk V c t (ix2 p k) = V c main_v24 (ix2 P k) := by
  obtain ⟨e0, e1, e2, e3, e4, e5, e6⟩ := idx_facts t
  show V c main_v24 (((cfg6.win 0).blk t).view.emb (ix2 p k)) = V c main_v24 (ix2 P k)
  refine congrArg _ (funext fun a => Fin.ext ?_)
  match a with
  | ⟨0, _⟩ => show win6_0.index t (0 : Fin 2) * 512 + 1 * p.val = P.val; omega
  | ⟨1, _⟩ => show win6_0.index t (1 : Fin 2) * 4096 + 1 * k.val = k.val; omega

/-- Row q of the weights' block at point (i, j) is row j · 1024 + q of the weights. -/
theorem wblk_apply (c : Dev nD) (t : Fin cfg6.N) (q : Fin 1024) (k : Fin 4096) (Q : Fin 4096)
    (hQ : Q.val = win6_3.index t (1 : Fin 2) * 1024 + q.val) :
    wblk V c t (ix2 q k) = V c main_v25 (ix2 Q k) := by
  obtain ⟨e0, e1, e2, e3, e4, e5, e6⟩ := idx_facts t
  show V c main_v25 (((cfg6.win 1).blk t).view.emb (ix2 q k)) = V c main_v25 (ix2 Q k)
  refine congrArg _ (funext fun a => Fin.ext ?_)
  match a with
  | ⟨0, _⟩ => show win6_1.index t (0 : Fin 2) * 1024 + 1 * q.val = Q.val; omega
  | ⟨1, _⟩ => show win6_1.index t (1 : Fin 2) * 4096 + 1 * k.val = k.val; omega

/-- Entry q of the bias block at point (i, j) is entry j · 1024 + q of the bias. -/
theorem bblk_apply (c : Dev nD) (t : Fin cfg6.N) (q : Fin 1024) (Q : Fin 4096)
    (hQ : Q.val = win6_3.index t (1 : Fin 2) * 1024 + q.val) :
    bblk V c t (ix1 q) = V c main_arg12 (ix1 Q) := by
  obtain ⟨e0, e1, e2, e3, e4, e5, e6⟩ := idx_facts t
  show V c main_arg12 (((cfg6.win 2).blk t).view.emb (ix1 q)) = V c main_arg12 (ix1 Q)
  refine congrArg _ (funext fun a => Fin.ext ?_)
  match a with
  | ⟨0, _⟩ => show win6_2.index t (0 : Fin 1) * 1024 + 1 * q.val = Q.val; omega

/-! ## What a point writes back -/

/-- Point (i, j) writes back block (i, j) of the dense layer of the whole arrays: entry (p, q) of its block is the
    layer's entry (i · 512 + p, j · 1024 + q), which depends on row i · 512 + p of the activations, row j · 1024 + q
    of the weights and entry j · 1024 + q of the bias — exactly the rows and entries the point's blocks hold. -/
theorem flushed_eq (c : Dev nD) (t : Fin cfg6.N) :
    (dat6 (F := Ideal) V c).flushed 3 t = ((cfg6.win 3).blk t).view.read (Elt Ideal) (Spec.dense (r := 8192) (k := 4096) (n := 4096) (V c main_v24) (V c main_v25) (V c main_arg12)) := by
  show (cfg6.win 3).cut (grid6.coords t) ((dat6 V c).after 3 t) = _
  rw [after6_3]
  unfold out6_3
  rw [View.canon_unit_zero zeros_two]
  simp only [View.ld_unit_zero (S := S512x4096) zeros_two, View.ld_unit_zero (S := S1024x4096) zeros_two, View.ld_unit_zero (S := S1024) zeros_one]
  funext j
  obtain ⟨p, q, rfl⟩ : ∃ (p : Fin 512) (q : Fin 1024), j = ix2 p q := ⟨j 0, j 1, eq_ix2 j⟩
  obtain ⟨e0, e1, e2, e3, e4, e5, e6⟩ := idx_facts t
  have hp : p.val < 512 := p.isLt
  have hq : q.val < 1024 := q.isLt
  obtain ⟨P, hP⟩ : ∃ P : Fin 8192, P.val = win6_3.index t (0 : Fin 2) * 512 + p.val := ⟨⟨_, by omega⟩, rfl⟩
  obtain ⟨Q, hQ⟩ : ∃ Q : Fin 4096, Q.val = win6_3.index t (1 : Fin 2) * 1024 + q.val := ⟨⟨_, by omega⟩, rfl⟩
  have hE : ((cfg6.win 3).blk t).view.emb (ix2 p q) = ix2 P Q := by
    funext a; apply Fin.ext
    match a with
    | ⟨0, _⟩ => show win6_3.index t (0 : Fin 2) * 512 + 1 * p.val = P.val; omega
    | ⟨1, _⟩ => show win6_3.index t (1 : Fin 2) * 1024 + 1 * q.val = Q.val; omega
  show k6_pay1 (F := Ideal) (xblk V c t) (wblk V c t) (bblk V c t) (ix2 p q)
    = Spec.dense (r := 8192) (k := 4096) (n := 4096) (V c main_v24) (V c main_v25) (V c main_arg12) (((cfg6.win 3).blk t).view.emb (ix2 p q))
  refine (payload_apply (xblk V c t) (wblk V c t) (bblk V c t) p q).trans ?_
  rw [hE, Spec.dense_apply, bblk_apply V c t q Q hQ]
  refine congrArg (fun s => max (s + V c main_arg12 (ix1 Q)) 0) (Finset.sum_congr rfl fun k _ => ?_)
  rw [xblk_apply V c t p k P hP, wblk_apply V c t q k Q hQ]

theorem arr3 (c : Dev nD) :
    (dat6 (F := Ideal) V c).arrAt 3 cfg6.N = Spec.dense (r := 8192) (k := 4096) (n := 4096) (V c main_v24) (V c main_v25) (V c main_arg12) := by
  exact (dat6 (F := Ideal) V c).arrAt_eq_of_cover 3 _ (fun t _ => flushed_eq V c t) cover

end Cert.KernelIdeal.R6

end
-- ==== Proof.R7.lean ====
/-
  Region 7 (the head): every point takes 1024 token rows, sums each against the one output row, adds the scalar bias and then each of the 295 biases, and applies the logistic function.
-/
import proofs.«118569_j13451837571471_1_alg».proof.Proof.Gen.KernelIdeal.Frame
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R7

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The layout steps of the body, read at an index -/

/-- A vector of `a` entries recast as a column `[a, 1]` reads, at `(i, u)`, the vector at `i`. -/
theorem col_cast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem col_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of a `[1024, 4096]` block, read at row `p`: the sum of that row's 4096 entries. -/
theorem row_sum_apply (v : FVec Ideal S1024x4096 .f32) (h : S1024x4096.Reduces [1] S1024) (hφ : FKind.Formats .f32)
    (hacc : (0x00000000#32 : BitVec (FTy.bits .f32)) = FKind.add.neutral .f32 hφ) (p : Fin 1024) :
    multiReduction (F := Ideal) .add [1] S1024 v 0x00000000#32 h hφ hacc (ix1 p) = ∑ k : Fin 4096, v (ix2 p k) := by
  refine (Ideal.multiReduction_add_single v _ h hφ hacc (ix1 p)).trans ?_
  refine Finset.sum_congr rfl fun k _ => congrArg v ?_
  funext c; apply Fin.ext
  match c with
  | ⟨0, _⟩ => rfl
  | ⟨1, _⟩ => rfl

/-! ## The body's arithmetic at an entry -/

/-- Entry `(p, q)` of what the body stores: the logistic function of row `p` of the token block summed against the one
    output row, plus the scalar bias, plus bias `q`. -/
theorem pay_apply (x0 : Vec Ideal S1024x4096 .bf16) (x1 : Vec Ideal S1x4096 .f32) (x2 : Vec Ideal S1 .f32)
    (x3 : Vec Ideal S295 .f32) (p : Fin 1024) (q : Fin 295) :
    k7_pay1 (F := Ideal) x0 x1 x2 x3 (ix2 p q)
      = Ideal.logistic (((∑ k : Fin 4096, x0 (ix2 p k) * x1 (ix2 (0 : Fin 1) k)) + x2 (ix1 (0 : Fin 1))) + x3 (ix1 q)) := by
  unfold k7_pay1
  dsimp only
  refine (Ideal.logistic_def _).trans (congrArg Ideal.logistic ?_)
  refine (addf_apply _ _ _).trans ?_
  refine congrArg₂ (· + ·) ?_ ?_
  · -- the per-row scalar, spread over the 295 columns
    refine (col_spread_apply _ _ p q).trans ?_
    refine (addf_apply _ _ _).trans ?_
    refine congrArg₂ (· + ·) ?_ (congrArg x2 (funext fun a => Fin.ext (by match a with | ⟨0, _⟩ => rfl)))
    refine (col_cast_apply _ _ p (0 : Fin 1)).trans ?_
    refine (row_sum_apply _ _ _ _ p).trans ?_
    refine Finset.sum_congr rfl fun k _ => ?_
    refine (mulf_apply _ _ _).trans ?_
    refine congrArg₂ (· * ·) ?_ ?_
    · exact congrFun (shapeCast_self x0 _) (ix2 p k)
    · exact broadcastTo_1b_ab_apply _ _ p k
  · -- the 295 biases, one row spread over the 1024 rows
    refine (broadcastTo_1b_ab_apply _ _ p q).trans ?_
    exact shapeCast_a_1a_apply _ _ (0 : Fin 1) q

/-- An entry of the body's store is the head's entry at any index `i` of the whole array whose row holds the block's row `p`
    and whose column is `q`: the four loaded blocks agree there with the four arrays. -/
theorem pay_eq_head (H : Spec.Mat 8192 4096) (W : Spec.Mat 1 4096) (Bo : Spec.Row 1) (B : Spec.Row 295)
    (x0 : Vec Ideal S1024x4096 .bf16) (x1 : Vec Ideal S1x4096 .f32) (x2 : Vec Ideal S1 .f32) (x3 : Vec Ideal S295 .f32)
    (i : S8192x295.Idx) (p : Fin 1024) (q : Fin 295)
    (h0 : ∀ k : Fin 4096, x0 (ix2 p k) = H (ix2 (i 0) k)) (h1 : ∀ k : Fin 4096, x1 (ix2 (0 : Fin 1) k) = W (ix2 (0 : Fin 1) k))
    (h2 : x2 (ix1 (0 : Fin 1)) = Bo (ix1 (0 : Fin 1))) (h3 : x3 (ix1 q) = B (ix1 (i 1))) :
    k7_pay1 (F := Ideal) x0 x1 x2 x3 (ix2 p q) = Spec.head H W Bo B i := by
  refine (pay_apply x0 x1 x2 x3 p q).trans ?_
  show _ = Ideal.logistic (((∑ k : Fin 4096, H (ix2 (i 0) k) * W (ix2 (0 : Fin 1) k)) + Bo (ix1 (0 : Fin 1))) + B (ix1 (i 1)))
  rw [h2, h3]
  refine congrArg Ideal.logistic (congrArg₂ (· + ·) (congrArg₂ (· + ·) ?_ rfl) rfl)
  exact Finset.sum_congr rfl fun k _ => by rw [h0 k, h1 k]

/-! ## From blocks to the array -/

/-- The body reads and writes whole blocks: every offset is zero. -/
theorem zero_offset2 : (![0, 0] : Fin 2 → Nat) = fun _ => 0 := funext fun a => by fin_cases a <;> rfl
theorem zero_offset1 : (![0] : Fin 1 → Nat) = fun _ => 0 := funext fun a => by fin_cases a <;> rfl

/-- The printed index maps, decided over the eight points: the token block and the output block of point `t` are both block
    row `t`, block column 0; the output row, the scalar bias and the 295 biases are whole arrays (block index 0). -/
theorem block_indices : ∀ t : Fin cfg7.N, win7_0.index t (0 : Fin 2) = t.val ∧ win7_0.index t (1 : Fin 2) = 0
    ∧ win7_4.index t (0 : Fin 2) = t.val ∧ win7_4.index t (1 : Fin 2) = 0
    ∧ win7_1.index t (0 : Fin 2) = 0 ∧ win7_1.index t (1 : Fin 2) = 0
    ∧ win7_2.index t (0 : Fin 1) = 0 ∧ win7_3.index t (0 : Fin 1) = 0 :=
  (by decide +kernel : ∀ t : Fin grid7.N, _)

/-- An index of the output array is in point `t`'s block iff each coordinate is in the block's range on its axis. -/
theorem mem_out_block (t : Fin cfg7.N) (i : S8192x295.Idx) :
    i ∈ ((cfg7.win 4).blk t).view.set ↔ ∀ a : Fin 2, win7_4.index t a * S1024x295.size a ≤ (i a).val
      ∧ (i a).val < win7_4.index t a * S1024x295.size a + S1024x295.size a := by
  show i ∈ ((View.whole main_v27).slice (win7_4.rect t)).set ↔ _
  rw [View.set_slice_whole, Rect.mem_set_unit]
  exact Iff.rfl

/-- Every entry of the output array is written back by some point: row `r` by point `r / 1024`, whose block holds
    rows `1024 (r / 1024)` to `1024 (r / 1024) + 1023` and all 295 columns. -/
theorem rows_covered (i : S8192x295.Idx) :
    ∃ t : Fin cfg7.N, (cfg7.win 4).flush t = true ∧ i ∈ ((cfg7.win 4).blk t).view.set := by
  have hi0 : (i 0).val < 8192 := (i 0).isLt
  have hi1 : (i 1).val < 295 := (i 1).isLt
  have hN : grid7.N = 8 := N_7
  have ht : (i 0).val / 1024 < grid7.N := by omega
  obtain ⟨e0, e1, e2, e3, -⟩ := block_indices ⟨(i 0).val / 1024, ht⟩
  refine ⟨⟨(i 0).val / 1024, ht⟩, flush7_4 _, ?_⟩
  rw [mem_out_block]
  intro a
  match a with
  | ⟨0, _⟩ =>
    show win7_4.index ⟨(i 0).val / 1024, ht⟩ (0 : Fin 2) * 1024 ≤ (i 0).val
      ∧ (i 0).val < win7_4.index ⟨(i 0).val / 1024, ht⟩ (0 : Fin 2) * 1024 + 1024
    have e2' : win7_4.index ⟨(i 0).val / 1024, ht⟩ (0 : Fin 2) = (i 0).val / 1024 := e2
    omega
  | ⟨1, _⟩ =>
    show win7_4.index ⟨(i 0).val / 1024, ht⟩ (1 : Fin 2) * 295 ≤ (i 1).val
      ∧ (i 1).val < win7_4.index ⟨(i 0).val / 1024, ht⟩ (1 : Fin 2) * 295 + 295
    omega

-- the TensorCore's buffer contents when the region is entered: a parameter
variable (V : (c : Dev nD) → (b : Ref sig .tc) → Buf (Elt Ideal) ((c : Thread nD τ).loc b))

/-- Point `t` writes back rows `1024 t` to `1024 t + 1023` of the head of the four arrays as the region finds them. -/
theorem written_back_eq_head (c : Dev nD) (t : Fin cfg7.N) :
    (dat7 (F := Ideal) V c).flushed 4 t = ((cfg7.win 4).blk t).view.read (Elt Ideal)
      (Spec.head (r := 8192) (k := 4096) (n := 295) (V c main_v26) (V c main_arg13) (V c main_arg14) (V c main_arg4)) := by
  show (cfg7.win 4).cut (grid7.coords t) ((dat7 V c).after 4 t) = _
  rw [after7_4]
  unfold out7_4
  rw [View.canon_unit_zero zero_offset2]
  simp only [View.ld_unit_zero (S := S1024x4096) zero_offset2, View.ld_unit_zero (S := S1x4096) zero_offset2, View.ld_unit_zero (S := S1) zero_offset1,
    View.ld_unit_zero (S := S295) zero_offset1]
  obtain ⟨e0, e1, e2, e3, e4, e5, e6, e7⟩ := block_indices t
  funext j
  obtain ⟨p, q, rfl⟩ : ∃ (p : Fin 1024) (q : Fin 295), j = ix2 p q := ⟨j 0, j 1, eq_ix2 j⟩
  show k7_pay1 (F := Ideal) (iblk7 V c 0 t) (iblk7 V c 1 t) (iblk7 V c 2 t) (iblk7 V c 3 t) (ix2 p q)
    = Spec.head (r := 8192) (k := 4096) (n := 295) (V c main_v26) (V c main_arg13) (V c main_arg14) (V c main_arg4)
        (((cfg7.win 4).blk t).view.emb (ix2 p q))
  refine pay_eq_head (V c main_v26) (V c main_arg13) (V c main_arg14) (V c main_arg4)
    (iblk7 V c 0 t) (iblk7 V c 1 t) (iblk7 V c 2 t) (iblk7 V c 3 t) (((cfg7.win 4).blk t).view.emb (ix2 p q)) p q
    (fun k => ?_) (fun k => ?_) ?_ ?_
  · -- the token block's row p is row t * 1024 + p of the tokens
    show V c main_v26 (((cfg7.win 0).blk t).view.emb (ix2 p k))
      = V c main_v26 (ix2 ((((cfg7.win 4).blk t).view.emb (ix2 p q)) 0) k)
    refine congrArg (V c main_v26) (funext fun a => Fin.ext ?_)
    match a with
    | ⟨0, _⟩ =>
      show win7_0.index t (0 : Fin 2) * 1024 + 1 * p.val = win7_4.index t (0 : Fin 2) * 1024 + 1 * p.val
      omega
    | ⟨1, _⟩ =>
      show win7_0.index t (1 : Fin 2) * 4096 + 1 * k.val = k.val
      omega
  · -- the output row is the whole array
    show V c main_arg13 (((cfg7.win 1).blk t).view.emb (ix2 (0 : Fin 1) k)) = V c main_arg13 (ix2 (0 : Fin 1) k)
    refine congrArg (V c main_arg13) (funext fun a => Fin.ext ?_)
    match a with
    | ⟨0, _⟩ =>
      show win7_1.index t (0 : Fin 2) * 1 + 1 * 0 = 0
      omega
    | ⟨1, _⟩ =>
      show win7_1.index t (1 : Fin 2) * 4096 + 1 * k.val = k.val
      omega
  · -- the scalar bias is the whole array
    show V c main_arg14 (((cfg7.win 2).blk t).view.emb (ix1 (0 : Fin 1))) = V c main_arg14 (ix1 (0 : Fin 1))
    refine congrArg (V c main_arg14) (funext fun a => Fin.ext ?_)
    match a with
    | ⟨0, _⟩ =>
      show win7_2.index t (0 : Fin 1) * 1 + 1 * 0 = 0
      omega
  · -- the 295 biases are the whole array, and the output block's column q is column q
    show V c main_arg4 (((cfg7.win 3).blk t).view.emb (ix1 q))
      = V c main_arg4 (ix1 ((((cfg7.win 4).blk t).view.emb (ix2 p q)) 1))
    refine congrArg (V c main_arg4) (funext fun a => Fin.ext ?_)
    match a with
    | ⟨0, _⟩ =>
      show win7_3.index t (0 : Fin 1) * 295 + 1 * q.val = win7_4.index t (1 : Fin 2) * 295 + 1 * q.val
      omega

theorem arr4 (c : Dev nD) :
    (dat7 (F := Ideal) V c).arrAt 4 cfg7.N = Spec.head (r := 8192) (k := 4096) (n := 295) (V c main_v26) (V c main_arg13) (V c main_arg14) (V c main_arg4) := by
  exact (dat7 (F := Ideal) V c).arrAt_eq_of_cover 4 _ (fun t _ => written_back_eq_head V c t) rows_covered

end Cert.KernelIdeal.R7

end
-- ==== Proof.KValue.lean ====
/-
  The kernel program's result as the network function of its arguments.

  The run of the eight regions and the host operations between them is a fold over the buffer contents: a host
  stretch rewrites the buffers its operations write, a region leaves its output arrays at what its points wrote
  back and every other buffer as it was.  Here the fold is read at the result buffer, one stage at a time: the
  three projections of the tokens, the scores, their softmax (the same chain of host operations the reference
  prints, carried as one function), the context, the four dense layers and the head.  Each region's output array
  is its closed form of the region's input arrays; each input array is either an earlier stage, carried unchanged
  through the segments in between, or an argument array read as launched (a conversion to a narrower float format
  is the identity on the extended reals).
-/
import proofs.«118569_j13451837571471_1_alg».proof.Proof.Gen.KernelIdeal.Frame
import proofs.«118569_j13451837571471_1_alg».proof.Proof.Spec
import proofs.«118569_j13451837571471_1_alg».proof.Proof.R0
import proofs.«118569_j13451837571471_1_alg».proof.Proof.R1
import proofs.«118569_j13451837571471_1_alg».proof.Proof.R2
import proofs.«118569_j13451837571471_1_alg».proof.Proof.R3
import proofs.«118569_j13451837571471_1_alg».proof.Proof.R4
import proofs.«118569_j13451837571471_1_alg».proof.Proof.R5
import proofs.«118569_j13451837571471_1_alg».proof.Proof.R6
import proofs.«118569_j13451837571471_1_alg».proof.Proof.R7
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg)

/-! ## Buffers a stretch of host operations does not write, and buffers no window of a region stands on -/

/-- No operation of the stretch writes the buffer. -/
abbrev NotWritten (ops : List (HloOp τ sig (Elt Ideal))) (b : Ref sig .tc) : Prop :=
  ∀ op ∈ ops, Proc.devRef (τ := τ) .tc b ∉ op.writes

/-- Decides `NotWritten` for a literal stretch: each operation writes one named buffer, different from the given one. -/
macro "host_not_written" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

section Kept
variable (b : Ref sig .tc) (c : Dev nD)

/-! A buffer holds its launch contents at a segment boundary when nothing before that boundary writes it: one lemma
    per boundary, each from the one before. -/

theorem kept1 (h0 : NotWritten hostOps0 b) : W1 m ρ c (Proc.devRef .tc b) = m ((c : Thread nD τ).loc b) :=
  StableHlo.after_of_forall_not_mem _ _ h0
theorem kept2 (h0 : NotWritten hostOps0 b) (r0 : ∀ w, Pipeline.arrRef spec0 w ≠ b) :
    W2 m ρ c (Proc.devRef .tc b) = m ((c : Thread nD τ).loc b) :=
  (W2_of_ne m ρ c b r0).trans (kept1 m ρ b c h0)
theorem kept3 (h0 : NotWritten hostOps0 b) (r0 : ∀ w, Pipeline.arrRef spec0 w ≠ b) (r1 : ∀ w, Pipeline.arrRef spec1 w ≠ b) :
    W3 m ρ c (Proc.devRef .tc b) = m ((c : Thread nD τ).loc b) :=
  (W3_of_ne m ρ c b r1).trans (kept2 m ρ b c h0 r0)
theorem kept4 (h0 : NotWritten hostOps0 b) (r0 : ∀ w, Pipeline.arrRef spec0 w ≠ b) (r1 : ∀ w, Pipeline.arrRef spec1 w ≠ b)
    (h2 : NotWritten hostOps2 b) : W4 m ρ c (Proc.devRef .tc b) = m ((c : Thread nD τ).loc b) :=
  (StableHlo.after_of_forall_not_mem _ _ h2).trans (kept3 m ρ b c h0 r0 r1)
theorem kept5 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) :
    W5 m ρ c (Proc.devRef .tc b) = m ((c : Thread nD τ).loc b) :=
  (W5_of_ne m ρ c b r2).trans (kept4 m ρ b c h0 r0 r1 h2)
theorem kept6 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b) :
    W6 m ρ c (Proc.devRef .tc b) = m ((c : Thread nD τ).loc b) :=
  (StableHlo.after_of_forall_not_mem _ _ h3).trans (kept5 m ρ b c h0 r0 r1 h2 r2)
theorem kept7 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) : W7 m ρ c (Proc.devRef .tc b) = m ((c : Thread nD τ).loc b) :=
  (W7_of_ne m ρ c b r3).trans (kept6 m ρ b c h0 r0 r1 h2 r2 h3)
theorem kept8 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) (h4 : NotWritten hostOps4 b) :
    W8 m ρ c (Proc.devRef .tc b) = m ((c : Thread nD τ).loc b) :=
  (StableHlo.after_of_forall_not_mem _ _ h4).trans (kept7 m ρ b c h0 r0 r1 h2 r2 h3 r3)
theorem kept9 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) (h4 : NotWritten hostOps4 b) (r4 : ∀ w, Pipeline.arrRef spec4 w ≠ b) :
    W9 m ρ c (Proc.devRef .tc b) = m ((c : Thread nD τ).loc b) :=
  (W9_of_ne m ρ c b r4).trans (kept8 m ρ b c h0 r0 r1 h2 r2 h3 r3 h4)
theorem kept10 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) (h4 : NotWritten hostOps4 b) (r4 : ∀ w, Pipeline.arrRef spec4 w ≠ b)
    (h5 : NotWritten hostOps5 b) : W10 m ρ c (Proc.devRef .tc b) = m ((c : Thread nD τ).loc b) :=
  (StableHlo.after_of_forall_not_mem _ _ h5).trans (kept9 m ρ b c h0 r0 r1 h2 r2 h3 r3 h4 r4)
theorem kept11 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) (h4 : NotWritten hostOps4 b) (r4 : ∀ w, Pipeline.arrRef spec4 w ≠ b)
    (h5 : NotWritten hostOps5 b) (r5 : ∀ w, Pipeline.arrRef spec5 w ≠ b) :
    W11 m ρ c (Proc.devRef .tc b) = m ((c : Thread nD τ).loc b) :=
  (W11_of_ne m ρ c b r5).trans (kept10 m ρ b c h0 r0 r1 h2 r2 h3 r3 h4 r4 h5)
theorem kept12 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) (h4 : NotWritten hostOps4 b) (r4 : ∀ w, Pipeline.arrRef spec4 w ≠ b)
    (h5 : NotWritten hostOps5 b) (r5 : ∀ w, Pipeline.arrRef spec5 w ≠ b) (h6 : NotWritten hostOps6 b) :
    W12 m ρ c (Proc.devRef .tc b) = m ((c : Thread nD τ).loc b) :=
  (StableHlo.after_of_forall_not_mem _ _ h6).trans (kept11 m ρ b c h0 r0 r1 h2 r2 h3 r3 h4 r4 h5 r5)
theorem kept13 (h0 : NotWritten hostOps0 b) (r0 : ∀ w, Pipeline.arrRef spec0 w ≠ b) (r1 : ∀ w, Pipeline.arrRef spec1 w ≠ b)
    (h2 : NotWritten hostOps2 b) (r2 : ∀ w, Pipeline.arrRef spec2 w ≠ b) (h3 : NotWritten hostOps3 b)
    (r3 : ∀ w, Pipeline.arrRef spec3 w ≠ b) (h4 : NotWritten hostOps4 b) (r4 : ∀ w, Pipeline.arrRef spec4 w ≠ b)
    (h5 : NotWritten hostOps5 b) (r5 : ∀ w, Pipeline.arrRef spec5 w ≠ b) (h6 : NotWritten hostOps6 b)
    (r6 : ∀ w, Pipeline.arrRef spec6 w ≠ b) : W13 m ρ c (Proc.devRef .tc b) = m ((c : Thread nD τ).loc b) :=
  (W13_of_ne m ρ c b r6).trans (kept12 m ρ b c h0 r0 r1 h2 r2 h3 r3 h4 r4 h5 r5 h6)

end Kept

/-! ## Congruence of the network's pieces in all their arguments -/

theorem mulT_congr {r k n : Nat} {x x' : Spec.Mat r k} {w w' : Spec.Mat n k} (hx : x = x') (hw : w = w') :
    Spec.mulT x w = Spec.mulT x' w' := by subst hx hw; rfl
theorem tmul_congr {k p n : Nat} {a a' : Spec.Mat k p} {b b' : Spec.Mat k n} (ha : a = a') (hb : b = b') :
    Spec.tmul a b = Spec.tmul a' b' := by subst ha hb; rfl
theorem dense_congr {r k n : Nat} {x x' : Spec.Mat r k} {w w' : Spec.Mat n k} {b b' : Spec.Row n}
    (hx : x = x') (hw : w = w') (hb : b = b') : Spec.dense x w b = Spec.dense x' w' b' := by subst hx hw hb; rfl
theorem head_congr {r k n : Nat} {h h' : Spec.Mat r k} {w w' : Spec.Mat 1 k} {s s' : Spec.Row 1} {b b' : Spec.Row n}
    (hh : h = h') (hw : w = w') (hs : s = s') (hb : b = b') : Spec.head h w s b = Spec.head h' w' s' b' := by
  subst hh hw hs hb; rfl

/-! ## The stages -/

section Stages
variable (c : Dev nD)

/-- The argument arrays as launched, at their literal types: the tokens, the three projection weights, the 295
    biases, and the dense layers' and the head's weights and biases. -/
abbrev aX : Spec.Mat 8192 512 := m ((c : Thread nD τ).loc main_arg0)
abbrev aWq : Spec.Mat 2048 512 := m ((c : Thread nD τ).loc main_arg1)
abbrev aWk : Spec.Mat 2048 512 := m ((c : Thread nD τ).loc main_arg2)
abbrev aWv : Spec.Mat 2048 512 := m ((c : Thread nD τ).loc main_arg3)
abbrev aB : Spec.Row 295 := m ((c : Thread nD τ).loc main_arg4)
abbrev aW1 : Spec.Mat 4096 2048 := m ((c : Thread nD τ).loc main_arg5)
abbrev aB1 : Spec.Row 4096 := m ((c : Thread nD τ).loc main_arg6)
abbrev aW2 : Spec.Mat 4096 4096 := m ((c : Thread nD τ).loc main_arg7)
abbrev aB2 : Spec.Row 4096 := m ((c : Thread nD τ).loc main_arg8)
abbrev aW3 : Spec.Mat 4096 4096 := m ((c : Thread nD τ).loc main_arg9)
abbrev aB3 : Spec.Row 4096 := m ((c : Thread nD τ).loc main_arg10)
abbrev aW4 : Spec.Mat 4096 4096 := m ((c : Thread nD τ).loc main_arg11)
abbrev aB4 : Spec.Row 4096 := m ((c : Thread nD τ).loc main_arg12)
abbrev aWout : Spec.Mat 1 4096 := m ((c : Thread nD τ).loc main_arg13)
abbrev aBout : Spec.Row 1 := m ((c : Thread nD τ).loc main_arg14)

/-- The stages of the network, each a function of the argument arrays. -/
abbrev sQ : Spec.Mat 8192 2048 := Spec.mulT (aX m c) (aWq m c)
abbrev sK : Spec.Mat 8192 2048 := Spec.mulT (aX m c) (aWk m c)
abbrev sV : Spec.Mat 8192 2048 := Spec.mulT (aX m c) (aWv m c)
abbrev sAtt : Spec.Mat 2048 2048 := Spec.tmul (sQ m c) (sK m c)
abbrev sW : Spec.Mat 2048 2048 := Spec.softmax (sAtt m c)
abbrev sCtx : Spec.Mat 8192 2048 := Spec.mulT (sV m c) (sW m c)
abbrev sH1 : Spec.Mat 8192 4096 := Spec.dense (sCtx m c) (aW1 m c) (aB1 m c)
abbrev sH2 : Spec.Mat 8192 4096 := Spec.dense (sH1 m c) (aW2 m c) (aB2 m c)
abbrev sH3 : Spec.Mat 8192 4096 := Spec.dense (sH2 m c) (aW3 m c) (aB3 m c)
abbrev sH4 : Spec.Mat 8192 4096 := Spec.dense (sH3 m c) (aW4 m c) (aB4 m c)

/-! ### Region 0's inputs: the four conversions of the first host stretch are the identity -/

theorem x_conv : W1 m ρ c (Proc.devRef .tc main_v0) = aX m c := by
  show StableHlo.after hostOps0 (W0 m ρ c) (Proc.devRef .tc main_v0) = _
  after_results
  rfl
theorem wq_conv : W1 m ρ c (Proc.devRef .tc main_v1) = aWq m c := by
  show StableHlo.after hostOps0 (W0 m ρ c) (Proc.devRef .tc main_v1) = _
  after_results
  rfl
theorem wk_conv : W1 m ρ c (Proc.devRef .tc main_v2) = aWk m c := by
  show StableHlo.after hostOps0 (W0 m ρ c) (Proc.devRef .tc main_v2) = _
  after_results
  rfl
theorem wv_conv : W1 m ρ c (Proc.devRef .tc main_v3) = aWv m c := by
  show StableHlo.after hostOps0 (W0 m ρ c) (Proc.devRef .tc main_v3) = _
  after_results
  rfl

/-! ### The three projections (region 0's outputs) -/

theorem q_stage : W2 m ρ c (Proc.devRef .tc main_v4_0) = sQ m c :=
  (W2_arr m ρ c 4).trans ((R0.arr4 (V1 m ρ) c).trans (mulT_congr (x_conv m ρ c) (wq_conv m ρ c)))
theorem k_stage : W2 m ρ c (Proc.devRef .tc main_v4_1) = sK m c :=
  (W2_arr m ρ c 5).trans ((R0.arr5 (V1 m ρ) c).trans (mulT_congr (x_conv m ρ c) (wk_conv m ρ c)))
theorem v_stage : W2 m ρ c (Proc.devRef .tc main_v4_2) = sV m c :=
  (W2_arr m ρ c 6).trans ((R0.arr6 (V1 m ρ) c).trans (mulT_congr (x_conv m ρ c) (wv_conv m ρ c)))

/-! ### The scores (region 1's output) -/

theorem att_stage : W3 m ρ c (Proc.devRef .tc main_v5) = sAtt m c :=
  (W3_arr m ρ c 2).trans ((R1.arr2 (V2 m ρ) c).trans (tmul_congr (q_stage m ρ c) (k_stage m ρ c)))

/-! ### The softmax (the second host stretch) and region 2's other input -/

theorem w_stage : W4 m ρ c (Proc.devRef .tc main_v17) = sW m c := by
  have e : W4 m ρ c (Proc.devRef .tc main_v17) = Spec.softmax (W3 m ρ c (Proc.devRef .tc main_v5)) := by
    show StableHlo.after hostOps2 (W3 m ρ c) (Proc.devRef .tc main_v17) = _
    after_results
    rfl
  exact e.trans (congrArg Spec.softmax (att_stage m ρ c))
theorem v_stage4 : W4 m ρ c (Proc.devRef .tc main_v4_2) = sV m c :=
  (StableHlo.after_of_forall_not_mem (b := Proc.devRef .tc main_v4_2) _ _ (by host_not_written hostOps2)).trans
    ((W3_of_ne m ρ c main_v4_2 (by decide)).trans (v_stage m ρ c))

/-! ### The context (region 2's output) -/

theorem ctx_stage : W5 m ρ c (Proc.devRef .tc main_v18) = sCtx m c :=
  (W5_arr m ρ c 2).trans ((R2.arr2 (V4 m ρ) c).trans (mulT_congr (v_stage4 m ρ c) (w_stage m ρ c)))

/-! ### The first dense layer (third host stretch, region 3) -/

theorem w1_conv : W6 m ρ c (Proc.devRef .tc main_v19) = aW1 m c := by
  have e : W6 m ρ c (Proc.devRef .tc main_v19) = W5 m ρ c (Proc.devRef .tc main_arg5) := by
    show StableHlo.after hostOps3 (W5 m ρ c) (Proc.devRef .tc main_v19) = _
    after_results
    rfl
  exact e.trans (kept5 m ρ main_arg5 c (by host_not_written hostOps0) (by decide) (by decide) (by host_not_written hostOps2) (by decide))
theorem ctx_stage6 : W6 m ρ c (Proc.devRef .tc main_v18) = sCtx m c :=
  (StableHlo.after_of_forall_not_mem (b := Proc.devRef .tc main_v18) _ _ (by host_not_written hostOps3)).trans (ctx_stage m ρ c)
theorem b1_kept : W6 m ρ c (Proc.devRef .tc main_arg6) = aB1 m c :=
  kept6 m ρ main_arg6 c (by host_not_written hostOps0) (by decide) (by decide) (by host_not_written hostOps2) (by decide) (by host_not_written hostOps3)
theorem h1_stage : W7 m ρ c (Proc.devRef .tc main_v20) = sH1 m c :=
  (W7_arr m ρ c 3).trans ((R3.arr3 (V6 m ρ) c).trans (dense_congr (ctx_stage6 m ρ c) (w1_conv m ρ c) (b1_kept m ρ c)))

/-! ### The second dense layer (fourth host stretch, region 4) -/

theorem w2_conv : W8 m ρ c (Proc.devRef .tc main_v21) = aW2 m c := by
  have e : W8 m ρ c (Proc.devRef .tc main_v21) = W7 m ρ c (Proc.devRef .tc main_arg7) := by
    show StableHlo.after hostOps4 (W7 m ρ c) (Proc.devRef .tc main_v21) = _
    after_results
    rfl
  exact e.trans (kept7 m ρ main_arg7 c (by host_not_written hostOps0) (by decide) (by decide) (by host_not_written hostOps2) (by decide) (by host_not_written hostOps3) (by decide))
theorem h1_stage8 : W8 m ρ c (Proc.devRef .tc main_v20) = sH1 m c :=
  (StableHlo.after_of_forall_not_mem (b := Proc.devRef .tc main_v20) _ _ (by host_not_written hostOps4)).trans (h1_stage m ρ c)
theorem b2_kept : W8 m ρ c (Proc.devRef .tc main_arg8) = aB2 m c :=
  kept8 m ρ main_arg8 c (by host_not_written hostOps0) (by decide) (by decide) (by host_not_written hostOps2) (by decide) (by host_not_written hostOps3) (by decide) (by host_not_written hostOps4)
theorem h2_stage : W9 m ρ c (Proc.devRef .tc main_v22) = sH2 m c :=
  (W9_arr m ρ c 3).trans ((R4.arr3 (V8 m ρ) c).trans (dense_congr (h1_stage8 m ρ c) (w2_conv m ρ c) (b2_kept m ρ c)))

/-! ### The third dense layer (fifth host stretch, region 5) -/

theorem w3_conv : W10 m ρ c (Proc.devRef .tc main_v23) = aW3 m c := by
  have e : W10 m ρ c (Proc.devRef .tc main_v23) = W9 m ρ c (Proc.devRef .tc main_arg9) := by
    show StableHlo.after hostOps5 (W9 m ρ c) (Proc.devRef .tc main_v23) = _
    after_results
    rfl
  exact e.trans (kept9 m ρ main_arg9 c (by host_not_written hostOps0) (by decide) (by decide) (by host_not_written hostOps2) (by decide) (by host_not_written hostOps3) (by decide) (by host_not_written hostOps4) (by decide))
theorem h2_stage10 : W10 m ρ c (Proc.devRef .tc main_v22) = sH2 m c :=
  (StableHlo.after_of_forall_not_mem (b := Proc.devRef .tc main_v22) _ _ (by host_not_written hostOps5)).trans (h2_stage m ρ c)
theorem b3_kept : W10 m ρ c (Proc.devRef .tc main_arg10) = aB3 m c :=
  kept10 m ρ main_arg10 c (by host_not_written hostOps0) (by decide) (by decide) (by host_not_written hostOps2) (by decide) (by host_not_written hostOps3) (by decide) (by host_not_written hostOps4) (by decide) (by host_not_written hostOps5)
theorem h3_stage : W11 m ρ c (Proc.devRef .tc main_v24) = sH3 m c :=
  (W11_arr m ρ c 3).trans ((R5.arr3 (V10 m ρ) c).trans (dense_congr (h2_stage10 m ρ c) (w3_conv m ρ c) (b3_kept m ρ c)))

/-! ### The fourth dense layer (sixth host stretch, region 6) -/

theorem w4_conv : W12 m ρ c (Proc.devRef .tc main_v25) = aW4 m c := by
  have e : W12 m ρ c (Proc.devRef .tc main_v25) = W11 m ρ c (Proc.devRef .tc main_arg11) := by
    show StableHlo.after hostOps6 (W11 m ρ c) (Proc.devRef .tc main_v25) = _
    after_results
    rfl
  exact e.trans (kept11 m ρ main_arg11 c (by host_not_written hostOps0) (by decide) (by decide) (by host_not_written hostOps2) (by decide) (by host_not_written hostOps3) (by decide) (by host_not_written hostOps4) (by decide) (by host_not_written hostOps5) (by decide))
theorem h3_stage12 : W12 m ρ c (Proc.devRef .tc main_v24) = sH3 m c :=
  (StableHlo.after_of_forall_not_mem (b := Proc.devRef .tc main_v24) _ _ (by host_not_written hostOps6)).trans (h3_stage m ρ c)
theorem b4_kept : W12 m ρ c (Proc.devRef .tc main_arg12) = aB4 m c :=
  kept12 m ρ main_arg12 c (by host_not_written hostOps0) (by decide) (by decide) (by host_not_written hostOps2) (by decide) (by host_not_written hostOps3) (by decide) (by host_not_written hostOps4) (by decide) (by host_not_written hostOps5) (by decide) (by host_not_written hostOps6)
theorem h4_stage : W13 m ρ c (Proc.devRef .tc main_v26) = sH4 m c :=
  (W13_arr m ρ c 3).trans ((R6.arr3 (V12 m ρ) c).trans (dense_congr (h3_stage12 m ρ c) (w4_conv m ρ c) (b4_kept m ρ c)))

/-! ### The head (region 7) -/

theorem wout_kept : W13 m ρ c (Proc.devRef .tc main_arg13) = aWout m c :=
  kept13 m ρ main_arg13 c (by host_not_written hostOps0) (by decide) (by decide) (by host_not_written hostOps2) (by decide) (by host_not_written hostOps3) (by decide) (by host_not_written hostOps4) (by decide) (by host_not_written hostOps5) (by decide) (by host_not_written hostOps6) (by decide)
theorem bout_kept : W13 m ρ c (Proc.devRef .tc main_arg14) = aBout m c :=
  kept13 m ρ main_arg14 c (by host_not_written hostOps0) (by decide) (by decide) (by host_not_written hostOps2) (by decide) (by host_not_written hostOps3) (by decide) (by host_not_written hostOps4) (by decide) (by host_not_written hostOps5) (by decide) (by host_not_written hostOps6) (by decide)
theorem b_kept : W13 m ρ c (Proc.devRef .tc main_arg4) = aB m c :=
  kept13 m ρ main_arg4 c (by host_not_written hostOps0) (by decide) (by decide) (by host_not_written hostOps2) (by decide) (by host_not_written hostOps3) (by decide) (by host_not_written hostOps4) (by decide) (by host_not_written hostOps5) (by decide) (by host_not_written hostOps6) (by decide)

/-- The result buffer after the run holds the network function of the argument arrays. -/
theorem result : W14 m ρ c (Proc.devRef .tc main_v27)
    = Spec.out (aX m c) (aWq m c) (aWk m c) (aWv m c) (aB m c) (aW1 m c) (aB1 m c) (aW2 m c) (aB2 m c) (aW3 m c) (aB3 m c)
        (aW4 m c) (aB4 m c) (aWout m c) (aBout m c) :=
  (W14_arr m ρ c 4).trans ((R7.arr4 (V13 m ρ) c).trans
    (head_congr (h4_stage m ρ c) (wout_kept m ρ c) (bout_kept m ρ c) (b_kept m ρ c)))

end Stages

end Cert.KernelIdeal.KValue

end
-- ==== Proof.RefValue.lean ====
/-
  The reference program's result is the network function of its arguments.

  Stage by stage: the three projections come out transposed (channels by tokens), with the factors of each
  product in the other order; the scores contract the token axis of two of them; the softmax is the same
  chain of host operations as in the kernel's program; the context contracts the softmax's second axis
  against the third projection's channels; each dense layer multiplies by a transposed weight matrix, adds
  the bias along the rows and takes the maximum with zero; the head's logistic function is spelt
  `1 / (1 + exp (-t))`.  Commutativity of the product of extended reals and re-indexing of finite sums are
  the only laws used.
-/
import proofs.«118569_j13451837571471_1_alg».proof.Proof.Gen.ReferenceIdeal.Read
import proofs.«118569_j13451837571471_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen

/-- An array of extended reals over a literal shape. -/
private abbrev Arr (S : Shape) : Type := (⟨S, .f32⟩ : BufTy).Contents (Elt Ideal)

/-! ## The projections: channels by tokens, the transposes of `x · wᵀ` -/

private theorem lidx_proj (a : Fin 2048) (s : Fin 8192) (k : Fin 512) :
    Read.lidx_main_v0 (ix2 a s) k = ix2 a k :=
  funext fun d => Fin.ext (by match d with | ⟨0, _⟩ => rfl | ⟨1, _⟩ => rfl)

private theorem ridx_proj (a : Fin 2048) (s : Fin 8192) (k : Fin 512) :
    Read.ridx_main_v0 (ix2 a s) k = ix2 s k :=
  funext fun d => Fin.ext (by match d with | ⟨0, _⟩ => rfl | ⟨1, _⟩ => rfl)

/-- Entry `(a, s)` of a projection is the sum over `e` of `w[a, e] · x[s, e]`: entry `(s, a)` of `x · wᵀ`,
    the factors commuted. -/
theorem projQ_apply (x : Arr S8192x512) (w : Arr S2048x512) (a : Fin 2048) (s : Fin 8192) :
    Read.val_main_v0 (F := Ideal) x w (ix2 a s) = Spec.mulT x w (ix2 s a) := by
  rw [Read.val_main_v0_apply, Spec.mulT_apply]
  refine Finset.sum_congr rfl fun k _ => ?_
  rw [lidx_proj, ridx_proj]
  exact mul_comm _ _

/-- The second and third projections are the same operation on another weight matrix. -/
theorem projK_apply (x : Arr S8192x512) (w : Arr S2048x512) (a : Fin 2048) (s : Fin 8192) :
    Read.val_main_v1 (F := Ideal) x w (ix2 a s) = Spec.mulT x w (ix2 s a) := projQ_apply x w a s

theorem projV_apply (x : Arr S8192x512) (w : Arr S2048x512) (a : Fin 2048) (s : Fin 8192) :
    Read.val_main_v2 (F := Ideal) x w (ix2 a s) = Spec.mulT x w (ix2 s a) := projQ_apply x w a s

/-! ## The scores: a contraction over the tokens -/

private theorem lidx_scores (p q : Fin 2048) (k : Fin 8192) :
    Read.lidx_main_v3 (ix2 p q) k = ix2 p k :=
  funext fun d => Fin.ext (by match d with | ⟨0, _⟩ => rfl | ⟨1, _⟩ => rfl)

private theorem ridx_scores (p q : Fin 2048) (k : Fin 8192) :
    Read.ridx_main_v3 (ix2 p q) k = ix2 q k :=
  funext fun d => Fin.ext (by match d with | ⟨0, _⟩ => rfl | ⟨1, _⟩ => rfl)

/-- Entry `(p, q)` of the scores is the sum over the tokens `s` of `Q[s, p] · K[s, q]`. -/
theorem scores_eq (x : Arr S8192x512) (wq wk : Arr S2048x512) :
    Read.val_main_v3 (F := Ideal) x wq wk = Spec.tmul (Spec.mulT x wq) (Spec.mulT x wk) := by
  funext i
  obtain ⟨p, q, rfl⟩ : ∃ (p q : Fin 2048), i = ix2 p q := ⟨i 0, i 1, eq_ix2 i⟩
  rw [Read.val_main_v3_apply, Spec.tmul_apply]
  refine Finset.sum_congr rfl fun k _ => ?_
  rw [lidx_scores, ridx_scores, projQ_apply, projK_apply]

/-! ## The softmax: the same chain of host operations, never opened -/

theorem weights_eq (x : Arr S8192x512) (wq wk : Arr S2048x512) :
    Read.val_main_v14 (F := Ideal) x wq wk = Spec.softmax (Read.val_main_v3 (F := Ideal) x wq wk) := by
  unfold Read.val_main_v14 Read.val_main_v13 Read.val_main_v12 Read.val_main_v11 Read.val_main_v10 Read.val_main_v9
    Read.val_main_v8 Read.val_main_v7 Read.val_main_v6 Read.val_main_v5 Read.val_main_v4 Read.val_main_cst
    Read.val_main_cst_0 Read.val_main_cst_1 Spec.softmax Spec.expShift
  generalize Read.val_main_v3 (F := Ideal) x wq wk = a
  rfl

/-! ## The context: the value projection mixed by the softmax weights -/

private theorem lidx_ctx (s : Fin 8192) (a : Fin 2048) (k : Fin 2048) :
    Read.lidx_main_v15 (ix2 s a) k = ix2 k s :=
  funext fun d => Fin.ext (by match d with | ⟨0, _⟩ => rfl | ⟨1, _⟩ => rfl)

private theorem ridx_ctx (s : Fin 8192) (a : Fin 2048) (k : Fin 2048) :
    Read.ridx_main_v15 (ix2 s a) k = ix2 a k :=
  funext fun d => Fin.ext (by match d with | ⟨0, _⟩ => rfl | ⟨1, _⟩ => rfl)

/-- Entry `(s, a)` of the context is the sum over `b` of `V[s, b] · P[a, b]`. -/
theorem ctx_eq (x : Arr S8192x512) (wq wk wv : Arr S2048x512) :
    Read.val_main_v15 (F := Ideal) x wq wk wv
      = Spec.mulT (Spec.mulT x wv) (Read.val_main_v14 (F := Ideal) x wq wk) := by
  funext i
  obtain ⟨s, a, rfl⟩ : ∃ (s : Fin 8192) (a : Fin 2048), i = ix2 s a := ⟨i 0, i 1, eq_ix2 i⟩
  rw [Read.val_main_v15_apply, Spec.mulT_apply]
  refine Finset.sum_congr rfl fun k _ => ?_
  rw [lidx_ctx, ridx_ctx, projV_apply]

/-! ## The dense layers: `max (h · wᵀ + bias, 0)` -/

/-- The word of one. -/
private theorem one_word : Ideal.ofBits .f32 0x3F800000#32 = 1 := by
  rw [show (1 : EReal) = ((1 : ℝ) : EReal) by norm_cast]
  simp [Ideal.ofBits, Ideal.ieee, -EReal.coe_mul]; norm_num

private theorem lidx_l1 (p : Fin 8192) (q : Fin 4096) (k : Fin 2048) :
    Read.lidx_main_v17 (ix2 p q) k = ix2 p k :=
  funext fun d => Fin.ext (by match d with | ⟨0, _⟩ => rfl | ⟨1, _⟩ => rfl)

private theorem ridx_l1 (p : Fin 8192) (q : Fin 4096) (k : Fin 2048) :
    Read.idx_main_v16 (Read.ridx_main_v17 (ix2 p q) k) = ix2 q k :=
  funext fun d => Fin.ext (by match d with | ⟨0, _⟩ => rfl | ⟨1, _⟩ => rfl)

private theorem bidx_l1 (p : Fin 8192) (q : Fin 4096) :
    Read.idx_main_v18 (Read.idx_main_v19 (ix2 p q)) = ix1 q :=
  funext fun d => Fin.ext (by match d with | ⟨0, _⟩ => rfl)

/-- The first layer: entry `(p, q)` is `max (Σ_j ctx[p, j] · w1[q, j] + b1[q], 0)`. -/
theorem dense1_eq (x : Arr S8192x512) (wq wk wv : Arr S2048x512) (w1 : Arr S4096x2048) (b1 : Arr S4096) :
    Read.val_main_v21 (F := Ideal) x wq wk wv w1 b1
      = Spec.dense (Read.val_main_v15 (F := Ideal) x wq wk wv) w1 b1 := by
  funext i
  obtain ⟨p, q, rfl⟩ : ∃ (p : Fin 8192) (q : Fin 4096), i = ix2 p q := ⟨i 0, i 1, eq_ix2 i⟩
  rw [Read.val_main_v21_apply, Read.val_main_v20_apply, Read.val_main_v17_apply, Read.val_main_v19_apply,
    Read.val_main_v18_apply, Read.val_main_call0_v0_apply, Read.val_main_call0_cst_apply, Spec.dense_apply, bidx_l1,
    Ideal.ofBits_def, Ideal.ofBits_zero_f32]
  refine congrArg (fun t => max (t + b1 (ix1 q)) 0) (Finset.sum_congr rfl fun k _ => ?_)
  rw [Read.val_main_v16_apply, lidx_l1, ridx_l1]

private theorem lidx_l2 (p : Fin 8192) (q : Fin 4096) (k : Fin 4096) :
    Read.lidx_main_v23 (ix2 p q) k = ix2 p k :=
  funext fun d => Fin.ext (by match d with | ⟨0, _⟩ => rfl | ⟨1, _⟩ => rfl)

private theorem ridx_l2 (p : Fin 8192) (q : Fin 4096) (k : Fin 4096) :
    Read.idx_main_v22 (Read.ridx_main_v23 (ix2 p q) k) = ix2 q k :=
  funext fun d => Fin.ext (by match d with | ⟨0, _⟩ => rfl | ⟨1, _⟩ => rfl)

private theorem bidx_l2 (p : Fin 8192) (q : Fin 4096) :
    Read.idx_main_v24 (Read.idx_main_v25 (ix2 p q)) = ix1 q :=
  funext fun d => Fin.ext (by match d with | ⟨0, _⟩ => rfl)

theorem dense2_eq (x : Arr S8192x512) (wq wk wv : Arr S2048x512) (w1 : Arr S4096x2048) (b1 : Arr S4096) (w2 : Arr S4096x4096) (b2 : Arr S4096) :
    Read.val_main_v27 (F := Ideal) x wq wk wv w1 b1 w2 b2
      = Spec.dense (Read.val_main_v21 (F := Ideal) x wq wk wv w1 b1) w2 b2 := by
  funext i
  obtain ⟨p, q, rfl⟩ : ∃ (p : Fin 8192) (q : Fin 4096), i = ix2 p q := ⟨i 0, i 1, eq_ix2 i⟩
  rw [Read.val_main_v27_apply, Read.val_main_v26_apply, Read.val_main_v23_apply, Read.val_main_v25_apply,
    Read.val_main_v24_apply, Read.val_main_call1_v0_apply, Read.val_main_call1_cst_apply, Spec.dense_apply, bidx_l2,
    Ideal.ofBits_def, Ideal.ofBits_zero_f32]
  refine congrArg (fun t => max (t + b2 (ix1 q)) 0) (Finset.sum_congr rfl fun k _ => ?_)
  rw [Read.val_main_v22_apply, lidx_l2, ridx_l2]

private theorem lidx_l3 (p : Fin 8192) (q : Fin 4096) (k : Fin 4096) :
    Read.lidx_main_v29 (ix2 p q) k = ix2 p k :=
  funext fun d => Fin.ext (by match d with | ⟨0, _⟩ => rfl | ⟨1, _⟩ => rfl)

private theorem ridx_l3 (p : Fin 8192) (q : Fin 4096) (k : Fin 4096) :
    Read.idx_main_v28 (Read.ridx_main_v29 (ix2 p q) k) = ix2 q k :=
  funext fun d => Fin.ext (by match d with | ⟨0, _⟩ => rfl | ⟨1, _⟩ => rfl)

private theorem bidx_l3 (p : Fin 8192) (q : Fin 4096) :
    Read.idx_main_v30 (Read.idx_main_v31 (ix2 p q)) = ix1 q :=
  funext fun d => Fin.ext (by match d with | ⟨0, _⟩ => rfl)

theorem dense3_eq (x : Arr S8192x512) (wq wk wv : Arr S2048x512) (w1 : Arr S4096x2048) (b1 : Arr S4096) (w2 : Arr S4096x4096) (b2 : Arr S4096)
    (w3 : Arr S4096x4096) (b3 : Arr S4096) :
    Read.val_main_v33 (F := Ideal) x wq wk wv w1 b1 w2 b2 w3 b3
      = Spec.dense (Read.val_main_v27 (F := Ideal) x wq wk wv w1 b1 w2 b2) w3 b3 := by
  funext i
  obtain ⟨p, q, rfl⟩ : ∃ (p : Fin 8192) (q : Fin 4096), i = ix2 p q := ⟨i 0, i 1, eq_ix2 i⟩
  rw [Read.val_main_v33_apply, Read.val_main_v32_apply, Read.val_main_v29_apply, Read.val_main_v31_apply,
    Read.val_main_v30_apply, Read.val_main_call2_v0_apply, Read.val_main_call2_cst_apply, Spec.dense_apply, bidx_l3,
    Ideal.ofBits_def, Ideal.ofBits_zero_f32]
  refine congrArg (fun t => max (t + b3 (ix1 q)) 0) (Finset.sum_congr rfl fun k _ => ?_)
  rw [Read.val_main_v28_apply, lidx_l3, ridx_l3]

private theorem lidx_l4 (p : Fin 8192) (q : Fin 4096) (k : Fin 4096) :
    Read.lidx_main_v35 (ix2 p q) k = ix2 p k :=
  funext fun d => Fin.ext (by match d with | ⟨0, _⟩ => rfl | ⟨1, _⟩ => rfl)

private theorem ridx_l4 (p : Fin 8192) (q : Fin 4096) (k : Fin 4096) :
    Read.idx_main_v34 (Read.ridx_main_v35 (ix2 p q) k) = ix2 q k :=
  funext fun d => Fin.ext (by match d with | ⟨0, _⟩ => rfl | ⟨1, _⟩ => rfl)

private theorem bidx_l4 (p : Fin 8192) (q : Fin 4096) :
    Read.idx_main_v36 (Read.idx_main_v37 (ix2 p q)) = ix1 q :=
  funext fun d => Fin.ext (by match d with | ⟨0, _⟩ => rfl)

theorem dense4_eq (x : Arr S8192x512) (wq wk wv : Arr S2048x512) (w1 : Arr S4096x2048) (b1 : Arr S4096) (w2 : Arr S4096x4096) (b2 : Arr S4096)
    (w3 : Arr S4096x4096) (b3 : Arr S4096) (w4 : Arr S4096x4096) (b4 : Arr S4096) :
    Read.val_main_v39 (F := Ideal) x wq wk wv w1 b1 w2 b2 w3 b3 w4 b4
      = Spec.dense (Read.val_main_v33 (F := Ideal) x wq wk wv w1 b1 w2 b2 w3 b3) w4 b4 := by
  funext i
  obtain ⟨p, q, rfl⟩ : ∃ (p : Fin 8192) (q : Fin 4096), i = ix2 p q := ⟨i 0, i 1, eq_ix2 i⟩
  rw [Read.val_main_v39_apply, Read.val_main_v38_apply, Read.val_main_v35_apply, Read.val_main_v37_apply,
    Read.val_main_v36_apply, Read.val_main_call3_v0_apply, Read.val_main_call3_cst_apply, Spec.dense_apply, bidx_l4,
    Ideal.ofBits_def, Ideal.ofBits_zero_f32]
  refine congrArg (fun t => max (t + b4 (ix1 q)) 0) (Finset.sum_congr rfl fun k _ => ?_)
  rw [Read.val_main_v34_apply, lidx_l4, ridx_l4]

/-! ## The head: one scalar per token, spread over the 295 biases, then `1 / (1 + exp (-t))` -/

private theorem lidx_head (p : Fin 8192) (q : Fin 295) (k : Fin 4096) :
    Read.lidx_main_v41 (Read.idx_main_v46 (ix2 p q)) k = ix2 p k :=
  funext fun d => Fin.ext (by match d with | ⟨0, _⟩ => rfl | ⟨1, _⟩ => rfl)

private theorem ridx_head (p : Fin 8192) (q : Fin 295) (k : Fin 4096) :
    Read.idx_main_v40 (Read.ridx_main_v41 (Read.idx_main_v46 (ix2 p q)) k) = ix2 0 k :=
  funext fun d => Fin.ext (by match d with | ⟨0, _⟩ => rfl | ⟨1, _⟩ => rfl)

private theorem oidx_head (p : Fin 8192) (q : Fin 295) :
    Read.idx_main_v42 (Read.idx_main_v43 (Read.idx_main_v46 (ix2 p q))) = ix1 0 :=
  funext fun d => Fin.ext (by match d with | ⟨0, _⟩ => rfl)

private theorem bidx_head (p : Fin 8192) (q : Fin 295) :
    Read.idx_main_v45 (Read.idx_main_v47 (ix2 p q)) = ix1 q :=
  funext fun d => Fin.ext (by match d with | ⟨0, _⟩ => rfl)

/-- Entry `(p, q)` of the result is the logistic function of `Σ_j h[p, j] · wout[0, j] + bout[0] + b[q]`. -/
theorem head_eq (x : Arr S8192x512) (wq wk wv : Arr S2048x512) (b : Arr S295) (w1 : Arr S4096x2048) (b1 : Arr S4096) (w2 : Arr S4096x4096)
    (b2 : Arr S4096) (w3 : Arr S4096x4096) (b3 : Arr S4096) (w4 : Arr S4096x4096) (b4 : Arr S4096)
    (wout : Arr S1x4096) (bout : Arr S1) :
    Read.val_main_v54 (F := Ideal) x wq wk wv b w1 b1 w2 b2 w3 b3 w4 b4 wout bout
      = Spec.head (Read.val_main_v39 (F := Ideal) x wq wk wv w1 b1 w2 b2 w3 b3 w4 b4) wout bout b := by
  funext i
  obtain ⟨p, q, rfl⟩ : ∃ (p : Fin 8192) (q : Fin 295), i = ix2 p q := ⟨i 0, i 1, eq_ix2 i⟩
  rw [Read.val_main_v54_apply, Read.val_main_v53_apply, Read.val_main_cst_3_apply, Read.val_main_v52_apply,
    Read.val_main_v51_apply, Read.val_main_cst_2_apply, Read.val_main_v50_apply, Read.val_main_v49_apply,
    Read.val_main_v48_apply, Read.val_main_v46_apply, Read.val_main_v44_apply, Read.val_main_v41_apply,
    Read.val_main_v43_apply, Read.val_main_v42_apply, Read.val_main_v47_apply, Read.val_main_v45_apply,
    Spec.head_apply, oidx_head, bidx_head, Ideal.ofBits_def, one_word]
  refine congrArg (fun t => Ideal.logistic ((t + bout (ix1 0)) + b (ix1 q))) (Finset.sum_congr rfl fun k _ => ?_)
  rw [Read.val_main_v40_apply, lidx_head, ridx_head]

/-! ## The chain -/

theorem ref_out (m : (ℓ : Loc nD τ sig) → Buf (Elt Ideal) ℓ) (c : Dev nD) :
    Cert.ReferenceIdeal.Value.res_out0 (F := Ideal) m c
      = Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) := by
  show Value.res_main_v54 (F := Ideal) m c = _
  unfold Spec.out
  rw [Read.val_main_v54_eq, head_eq, dense4_eq, dense3_eq, dense2_eq, dense1_eq, ctx_eq, weights_eq, scores_eq]

end Cert.ReferenceIdeal.RefValue

end
-- ==== Proof.lean ====
/-
  The certificate's claims, assembled.

  Both idealized programs compute one function of the fifteen argument arrays, `Cert.Spec.out`: a self-attention
  block over attention channels followed by four rectified dense layers and a logistic head.  The kernel's side:
  its run ends with the result array at the fold of the eight regions' write-backs and the host operations between
  them, and that fold read at the result buffer is the network function.  The reference's side: its run ends with
  the result at the composed term of its host operations, and that term is the network function too (its matrix
  products are the same sums with the factors transposed or in the other order).  From memories that agree on the
  arguments the two results are therefore equal, entry by entry, as extended reals.  Finiteness of the inputs is
  never used: only commutativity of the product and re-grouping of finite sums relate the two sides.
-/
import proofs.«118569_j13451837571471_1_alg».proof.Defs
import proofs.«118569_j13451837571471_1_alg».proof.Proof.Gen.Kernel
import proofs.«118569_j13451837571471_1_alg».proof.Proof.Gen.Kernel.Skeleton
import proofs.«118569_j13451837571471_1_alg».proof.Proof.Gen.Kernel.Launch
import proofs.«118569_j13451837571471_1_alg».proof.Proof.Gen.Kernel.Points
import proofs.«118569_j13451837571471_1_alg».proof.Proof.Gen.Kernel.Frame
import proofs.«118569_j13451837571471_1_alg».proof.Proof.Gen.KernelIdeal
import proofs.«118569_j13451837571471_1_alg».proof.Proof.Gen.KernelIdeal.Skeleton
import proofs.«118569_j13451837571471_1_alg».proof.Proof.Gen.KernelIdeal.Launch
import proofs.«118569_j13451837571471_1_alg».proof.Proof.Gen.KernelIdeal.Points
import proofs.«118569_j13451837571471_1_alg».proof.Proof.Gen.KernelIdeal.Frame
import proofs.«118569_j13451837571471_1_alg».proof.Proof.Gen.ReferenceIdeal
import proofs.«118569_j13451837571471_1_alg».proof.Proof.Gen.ReferenceIdeal.Run
import proofs.«118569_j13451837571471_1_alg».proof.Proof.Gen.Pre_finite_inputs
import proofs.«118569_j13451837571471_1_alg».proof.Proof.KRun
import proofs.«118569_j13451837571471_1_alg».proof.Proof.KValue
import proofs.«118569_j13451837571471_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the frame of its eight regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with the network function of the (agreeing) arguments in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    refine (Cert.ReferenceIdeal.RefValue.ref_out m' c).trans ?_
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
